-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x1024 : Shape := ⟨3, ![64, 128, 1024]⟩
abbrev S64x1024x1024 : Shape := ⟨3, ![64, 1024, 1024]⟩
abbrev S64x1024 : Shape := ⟨2, ![64, 1024]⟩
abbrev S64 : Shape := ⟨1, ![64]⟩
abbrev S1024x1024 : Shape := ⟨2, ![1024, 1024]⟩
abbrev S1024x2048 : Shape := ⟨2, ![1024, 2048]⟩
abbrev S_ : Shape := ⟨0, ![]⟩

class Facts : Prop where
  bcast_S_S64x128x1024 : S_.BroadcastsInDim S64x128x1024 (![] : Fin 0 → Fin S64x128x1024.rank)
  reducesTo_S64x128x1024_S_d0_1_2 : S64x128x1024.ReducesTo [0, 1, 2] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x1024 : S_.BroadcastsInDim S64x1024 (![] : Fin 0 → Fin S64x1024.rank)
  reducesTo_S64x1024_S_d0_1 : S64x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg5 : FVec F S1024x2048 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x2048 .f32 := Host.absf main_arg5
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  main_v23

def fn {F : FTy → Type} [FloatOps F] (main_arg0 : FVec F S64x128x1024 .f32) (main_arg1 : FVec F S64x1024x1024 .f32) (main_arg2 : FVec F S64x1024 .f32) (main_arg3 : IVec S64 32) (main_arg4 : FVec F S1024x1024 .f32) (main_arg5 : FVec F S1024x2048 .f32) : IVec S_ 1 :=
  let main_v0 : FVec F S64x128x1024 .f32 := Host.absf main_arg0
  let main_cst : FVec F S_ .f32 := constant S_ .f32 0x7F800000#32
  let main_v1 : FVec F S64x128x1024 .f32 := broadcastInDim S64x128x1024 ![] bcast_S_S64x128x1024 main_cst
  let main_v2 : IVec S64x128x1024 1 := cmpf .olt main_v0 main_v1
  let main_c : IVec S_ 1 := constantI S_ 1 1#1
  let main_v3 : IVec S_ 1 := (fun x v => Host.reduce IntOp.andi x v reducesTo_S64x128x1024_S_d0_1_2 h_S_) main_v2 main_c
  let main_v4 : FVec F S64x1024x1024 .f32 := Host.absf main_arg1
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Kernel.lean ====
abbrev S64x128x1024 : Shape := ⟨3, ![64, 128, 1024]⟩
abbrev S64x1024x1024 : Shape := ⟨3, ![64, 1024, 1024]⟩
abbrev S64x1024 : Shape := ⟨2, ![64, 1024]⟩
abbrev S64 : Shape := ⟨1, ![64]⟩
abbrev S1024x1024 : Shape := ⟨2, ![1024, 1024]⟩
abbrev S1024x2048 : Shape := ⟨2, ![1024, 2048]⟩
abbrev S2048x1024 : Shape := ⟨2, ![2048, 1024]⟩
abbrev S64x1x1024 : Shape := ⟨3, ![64, 1, 1024]⟩
abbrev S1x128x1024 : Shape := ⟨3, ![1, 128, 1024]⟩
abbrev S1x1024x1024 : Shape := ⟨3, ![1, 1024, 1024]⟩
abbrev S1x1x1024 : Shape := ⟨3, ![1, 1, 1024]⟩
abbrev S128x1024 : Shape := ⟨2, ![128, 1024]⟩
abbrev S1x1024 : Shape := ⟨2, ![1, 1024]⟩
abbrev S1 : Shape := ⟨1, ![1]⟩
abbrev S128 : Shape := ⟨1, ![128]⟩
abbrev S128x1 : Shape := ⟨2, ![128, 1]⟩
abbrev S128x2048 : Shape := ⟨2, ![128, 2048]⟩
abbrev S128x64x1024 : Shape := ⟨3, ![128, 64, 1024]⟩

abbrev nBuf : Space → Nat
  | .hbm => 14
  | .vmem => 14
  | .smem => 1
  | _ => 0

abbrev bufTy : (tb : Table) → Fin (tcTables nBuf tb) → BufTy
  | .hbm, ⟨0, _⟩ => ⟨S64x128x1024, .f32⟩
  | .hbm, ⟨1, _⟩ => ⟨S64x1024x1024, .f32⟩
  | .hbm, ⟨2, _⟩ => ⟨S64x1024, .f32⟩
  | .hbm, ⟨3, _⟩ => ⟨S1024x1024, .f32⟩
  | .hbm, ⟨4, _⟩ => ⟨S1024x2048, .f32⟩
  | .hbm, ⟨5, _⟩ => ⟨S1024x1024, .f32⟩
  | .hbm, ⟨6, _⟩ => ⟨S2048x1024, .f32⟩
  | .hbm, ⟨7, _⟩ => ⟨S64x1x1024, .f32⟩
  | .hbm, ⟨8, _⟩ => ⟨S64x128x1024, .f32⟩
  | .hbm, ⟨9, _⟩ => ⟨S64x128x1024, .f32⟩
  | .hbm, ⟨10, _⟩ => ⟨S64x128x1024, .f32⟩
  | .hbm, ⟨11, _⟩ => ⟨S128x64x1024, .f32⟩
  | .hbm, ⟨12, _⟩ => ⟨S128x64x1024, .f32⟩
  | .hbm, ⟨13, _⟩ => ⟨S128x64x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .f32⟩
  | .local _ .vmem, ⟨7, _⟩ => ⟨S2048x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .smem, ⟨0, _⟩ => ⟨S64, .i32⟩
  | _, _ => ⟨S64x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v10 : Index := Scalar.indexCast arg0
  ![v10.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  transposes_S1024x2048_S2048x1024_1_0 : S1024x2048.Transposes [1, 0] S2048x1024
  shapeCasts_S64x1024_S64x1x1024 : S64x1024.ShapeCasts S64x1x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  numel1_S1 : S1.numel = 1
  bitsLt_bf16_f32 : FTy.bits .bf16 < FTy.bits .f32
  iota_S128x1024_d1_w32 : S128x1024.Iotas .tc 32 [1]
  reduces_S128x1024_S128 : S128x1024.Reduces [1] S128
  shapeCasts_S128_S128x1 : S128.ShapeCasts S128x1
  broadcasts_S128x1_S128x1024 : S128x1.Broadcasts S128x1024
  broadcasts_S1x1024_S128x1024 : S1x1024.Broadcasts S128x1024
  natLt_1_32 : 1 < 32
  concatenates_S128x1024_S128x1024_S128x2048_d1 : Shape.Concatenates [S128x1024, S128x1024] S128x2048 1
  shapeCasts_S128x1024_S1x128x1024 : S128x1024.ShapeCasts S1x128x1024
  transposes_S64x128x1024_S128x64x1024_1_0_2 : S64x128x1024.Transposes [1, 0, 2] S128x64x1024
  dot_S128x1024_S1024x1024_S128x1024_1_0_0_1_n_n_wf : DotDims.WF S128x1024 S1024x1024 S128x1024 [1] [0] [0] [1] [] []
  dot_S128x1024_S1024x1024_S128x1024_1_1_0_0_n_n_wf : DotDims.WF S128x1024 S1024x1024 S128x1024 [1] [1] [0] [0] [] []
  dot_S128x2048_S2048x1024_S128x1024_1_0_0_1_n_n_wf : DotDims.WF S128x2048 S2048x1024 S128x1024 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S64x128x1024.size a
  hwx0_0 : ∀ i : grid0.Coords, EltTy.bits .f32 = 32 ∨ (Rect.block (s := S64x128x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .f32 = 32 ∨ (Rect.block (s := S64x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S64x1x1024.size a
  hwx0_2 : ∀ i : grid0.Coords, EltTy.bits .f32 = 32 ∨ (Rect.block (s := S64x1x1024) S1x1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .f32 = 32 ∨ (Rect.block (s := S2048x1024) S2048x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x1024.size a ≤ S64x128x1024.size a
  hwx0_5 : ∀ i : grid0.Coords, EltTy.bits .f32 = 32 ∨ (Rect.block (s := S64x128x1024) S1x128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x1024.size a ≤ S64x128x1024.size a
  hwx0_6 : ∀ i : grid0.Coords, EltTy.bits .f32 = 32 ∨ (Rect.block (s := S64x128x1024) S1x128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x1024.size a ≤ S64x128x1024.size a
  hwx0_7 : ∀ i : grid0.Coords, EltTy.bits .f32 = 32 ∨ (Rect.block (s := S64x128x1024) S1x128x1024.size (cc0_transform_7 i) (hinb0_7 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev spec0_0 : Pipeline.WinSpec sig grid0.rank :=
  Pipeline.WinSpec.ofSpec (Memref.whole main_arg0) S1x128x1024.size reads0_0 false false 2 stage0_0 sem0_0 nbuf0_0 hstage0_0

abbrev spec0_1 : Pipeline.WinSpec sig grid0.rank :=
  Pipeline.WinSpec.ofSpec (Memref.whole main_arg1) S1x1024x1024.size reads0_1 false false 2 stage0_1 sem0_1 nbuf0_1 hstage0_1

abbrev spec0_2 : Pipeline.WinSpec sig grid0.rank :=
  Pipeline.WinSpec.ofSpec (Memref.whole main_v2) S1x1x1024.size reads0_2 false false 2 stage0_2 sem0_2 nbuf0_2 hstage0_2

abbrev spec0_3 : Pipeline.WinSpec sig grid0.rank :=
  Pipeline.WinSpec.ofSpec (Memref.whole main_v0) S1024x1024.size reads0_3 false true 1 stage0_3 sem0_3 nbuf0_3 hstage0_3

abbrev spec0_4 : Pipeline.WinSpec sig grid0.rank :=
  Pipeline.WinSpec.ofSpec (Memref.whole main_v1) S2048x1024.size reads0_4 false true 1 stage0_4 sem0_4 nbuf0_4 hstage0_4

abbrev spec0_5 : Pipeline.WinSpec sig grid0.rank :=
  Pipeline.WinSpec.ofSpec (Memref.whole main_v3_0) S1x128x1024.size reads0_5 true false 2 stage0_5 sem0_5 nbuf0_5 hstage0_5

abbrev spec0_6 : Pipeline.WinSpec sig grid0.rank :=
  Pipeline.WinSpec.ofSpec (Memref.whole main_v3_1) S1x128x1024.size reads0_6 true false 2 stage0_6 sem0_6 nbuf0_6 hstage0_6

abbrev spec0_7 : Pipeline.WinSpec sig grid0.rank :=
  Pipeline.WinSpec.ofSpec (Memref.whole main_v3_2) S1x128x1024.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S64x128x1024 : Shape := ⟨3, ![64, 128, 1024]⟩
abbrev S64x1024x1024 : Shape := ⟨3, ![64, 1024, 1024]⟩
abbrev S64x1024 : Shape := ⟨2, ![64, 1024]⟩
abbrev S64 : Shape := ⟨1, ![64]⟩
abbrev S1024x1024 : Shape := ⟨2, ![1024, 1024]⟩
abbrev S1024x2048 : Shape := ⟨2, ![1024, 2048]⟩
abbrev S1024 : Shape := ⟨1, ![1024]⟩
abbrev S1x1024 : Shape := ⟨2, ![1, 1024]⟩
abbrev S64x1 : Shape := ⟨2, ![64, 1]⟩
abbrev S64x1x1024 : Shape := ⟨3, ![64, 1, 1024]⟩
abbrev S_ : Shape := ⟨0, ![]⟩
abbrev S64x128 : Shape := ⟨2, ![64, 128]⟩
abbrev S64x128x1 : Shape := ⟨3, ![64, 128, 1]⟩
abbrev S64x128x2048 : Shape := ⟨3, ![64, 128, 2048]⟩
abbrev S128x64x1024 : Shape := ⟨3, ![128, 64, 1024]⟩

abbrev nBuf : Space → Nat
  | .hbm => 52
  | .vmem => 0
  | .smem => 0
  | _ => 0

abbrev bufTy : (tb : Table) → Fin (tcTables nBuf tb) → BufTy
  | .hbm, ⟨0, _⟩ => ⟨S64x128x1024, .f32⟩
  | .hbm, ⟨1, _⟩ => ⟨S64x1024x1024, .f32⟩
  | .hbm, ⟨2, _⟩ => ⟨S64x1024, .f32⟩
  | .hbm, ⟨3, _⟩ => ⟨S64, .i32⟩
  | .hbm, ⟨4, _⟩ => ⟨S1024x1024, .f32⟩
  | .hbm, ⟨5, _⟩ => ⟨S1024x2048, .f32⟩
  | .hbm, ⟨6, _⟩ => ⟨S64x128x1024, .f32⟩
  | .hbm, ⟨7, _⟩ => ⟨S64x128x1024, .f32⟩
  | .hbm, ⟨8, _⟩ => ⟨S1024, .i32⟩
  | .hbm, ⟨9, _⟩ => ⟨S1x1024, .i32⟩
  | .hbm, ⟨10, _⟩ => ⟨S64x1, .i32⟩
  | .hbm, ⟨11, _⟩ => ⟨S64x1024, .i32⟩
  | .hbm, ⟨12, _⟩ => ⟨S64x1024, .i32⟩
  | .hbm, ⟨13, _⟩ => ⟨S64x1024, .i1⟩
  | .hbm, ⟨14, _⟩ => ⟨S64x1x1024, .i1⟩
  | .hbm, ⟨15, _⟩ => ⟨S_, .f32⟩
  | .hbm, ⟨16, _⟩ => ⟨S_, .f32⟩
  | .hbm, ⟨17, _⟩ => ⟨S64x128x1024, .i1⟩
  | .hbm, ⟨18, _⟩ => ⟨S64x128x1024, .f32⟩
  | .hbm, ⟨19, _⟩ => ⟨S64x128x1024, .f32⟩
  | .hbm, ⟨20, _⟩ => ⟨S_, .f32⟩
  | .hbm, ⟨21, _⟩ => ⟨S64x128, .f32⟩
  | .hbm, ⟨22, _⟩ => ⟨S_, .f32⟩
  | .hbm, ⟨23, _⟩ => ⟨S64x128, .f32⟩
  | .hbm, ⟨24, _⟩ => ⟨S64x128, .f32⟩
  | .hbm, ⟨25, _⟩ => ⟨S64x128x1, .f32⟩
  | .hbm, ⟨26, _⟩ => ⟨S64x128x1024, .f32⟩
  | .hbm, ⟨27, _⟩ => ⟨S64x128x1024, .f32⟩
  | .hbm, ⟨28, _⟩ => ⟨S64x128x1024, .f32⟩
  | .hbm, ⟨29, _⟩ => ⟨S_, .f32⟩
  | .hbm, ⟨30, _⟩ => ⟨S64x128, .f32⟩
  | .hbm, ⟨31, _⟩ => ⟨S64x128x1, .f32⟩
  | .hbm, ⟨32, _⟩ => ⟨S64x128x1024, .f32⟩
  | .hbm, ⟨33, _⟩ => ⟨S64x128x1024, .f32⟩
  | .hbm, ⟨34, _⟩ => ⟨S64x1x1024, .f32⟩
  | .hbm, ⟨35, _⟩ => ⟨S64x128x1024, .f32⟩
  | .hbm, ⟨36, _⟩ => ⟨S64x128x1024, .f32⟩
  | .hbm, ⟨37, _⟩ => ⟨S64x1x1024, .f32⟩
  | .hbm, ⟨38, _⟩ => ⟨S64x128x1024, .f32⟩
  | .hbm, ⟨39, _⟩ => ⟨S64x128x1024, .f32⟩
  | .hbm, ⟨40, _⟩ => ⟨S_, .f32⟩
  | .hbm, ⟨41, _⟩ => ⟨S64x128, .f32⟩
  | .hbm, ⟨42, _⟩ => ⟨S64x128x1, .f32⟩
  | .hbm, ⟨43, _⟩ => ⟨S64x128x1024, .f32⟩
  | .hbm, ⟨44, _⟩ => ⟨S64x128x1024, .f32⟩
  | .hbm, ⟨45, _⟩ => ⟨S64x128x1024, .f32⟩
  | .hbm, ⟨46, _⟩ => ⟨S64x128x2048, .f32⟩
  | .hbm, ⟨47, _⟩ => ⟨S64x128x1024, .f32⟩
  | .hbm, ⟨48, _⟩ => ⟨S64x128x1024, .f32⟩
  | .hbm, ⟨49, _⟩ => ⟨S128x64x1024, .f32⟩
  | .hbm, ⟨50, _⟩ => ⟨S128x64x1024, .f32⟩
  | .hbm, ⟨51, _⟩ => ⟨S128x64x1024, .f32⟩
  | _, _ => ⟨S64x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S64_S64x1_0 : S64.BroadcastsInDim S64x1 (![0] : Fin 1 → Fin S64x1.rank)
  bcast_S1x1024_S64x1024_0_1 : S1x1024.BroadcastsInDim S64x1024 (![0, 1] : Fin 2 → Fin S64x1024.rank)
  bcast_S64x1_S64x1024_0_1 : S64x1.BroadcastsInDim S64x1024 (![0, 1] : Fin 2 → Fin S64x1024.rank)
  bcast_S64x1024_S64x1x1024_0_2 : S64x1024.BroadcastsInDim S64x1x1024 (![0, 2] : Fin 2 → Fin S64x1x1024.rank)
  bcast_S64x1x1024_S64x128x1024_0_1_2 : S64x1x1024.BroadcastsInDim S64x128x1024 (![0, 1, 2] : Fin 3 → Fin S64x128x1024.rank)
  bcast_S_S64x128x1024 : S_.BroadcastsInDim S64x128x1024 (![] : Fin 0 → Fin S64x128x1024.rank)
  reducesTo_S64x128x1024_S64x128_d2 : S64x128x1024.ReducesTo [2] S64x128
  h_S_ : 0 < S_.numel
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S64x128x1_S64x128x1024_0_1_2 : S64x128x1.BroadcastsInDim S64x128x1024 (![0, 1, 2] : Fin 3 → Fin S64x128x1024.rank)
  concatenates_S64x128x1024_S64x128x1024_S64x128x2048_d2 : Shape.Concatenates [S64x128x1024, S64x128x1024] S64x128x2048 2
  transposes_S64x128x1024_S128x64x1024_1_0_2 : S64x128x1024.Transposes [1, 0, 2] S128x64x1024
  dot_S64x128x1024_S1024x1024_S64x128x1024_2_1_01_0_n_n_wf : DotDims.WF S64x128x1024 S1024x1024 S64x128x1024 [2] [1] [0, 1] [0] [] []
  dot_S64x128x1024_S64x1024x1024_S64x128x1024_2_2_1_1_0_0_wf : DotDims.WF S64x128x1024 S64x1024x1024 S64x128x1024 [2] [2] [1] [1] [0] [0]
  dot_S64x128x1024_S64x1024x1024_S64x128x1024_2_1_1_2_0_0_wf : DotDims.WF S64x128x1024 S64x1024x1024 S64x128x1024 [2] [1] [1] [2] [0] [0]
  dot_S64x128x2048_S1024x2048_S64x128x1024_2_1_01_0_n_n_wf : DotDims.WF S64x128x2048 S1024x2048 S64x128x1024 [2] [1] [0, 1] [0] [] []

variable [Facts₀]

def dot_S64x128x1024_S1024x1024_S64x128x1024_2_1_01_0_n_n : DotDims S64x128x1024 S1024x1024 S64x128x1024 where
  lhsContracting := [2]
  rhsContracting := [1]
  lhsNonContracting := [0, 1]
  rhsNonContracting := [0]
  lhsBatch := []
  rhsBatch := []
  wf := dot_S64x128x1024_S1024x1024_S64x128x1024_2_1_01_0_n_n_wf
def dot_S64x128x1024_S64x1024x1024_S64x128x1024_2_2_1_1_0_0 : DotDims S64x128x1024 S64x1024x1024 S64x128x1024 where
  lhsContracting := [2]
  rhsContracting := [2]
  lhsNonContracting := [1]
  rhsNonContracting := [1]
  lhsBatch := [0]
  rhsBatch := [0]
  wf := dot_S64x128x1024_S64x1024x1024_S64x128x1024_2_2_1_1_0_0_wf
def dot_S64x128x1024_S64x1024x1024_S64x128x1024_2_1_1_2_0_0 : DotDims S64x128x1024 S64x1024x1024 S64x128x1024 where
  lhsContracting := [2]
  rhsContracting := [1]
  lhsNonContracting := [1]
  rhsNonContracting := [2]
  lhsBatch := [0]
  rhsBatch := [0]
  wf := dot_S64x128x1024_S64x1024x1024_S64x128x1024_2_1_1_2_0_0_wf
def dot_S64x128x2048_S1024x2048_S64x128x1024_2_1_01_0_n_n : DotDims S64x128x2048 S1024x2048 S64x128x1024 where
  lhsContracting := [2]
  rhsContracting := [1]
  lhsNonContracting := [0, 1]
  rhsNonContracting := [0]
  lhsBatch := []
  rhsBatch := []
  wf := dot_S64x128x2048_S1024x2048_S64x128x1024_2_1_01_0_n_n_wf

class Facts : Prop extends Facts₀ where

variable [Facts]
-- ==== Proof.AttnDefs.lean ====
/-
  The kernel's values, named. Grid point b (one batch) sees: rows b of source (128 x 1024), of memory_bank
  (1024 x 1024) and of probs (1 x 1024), the transposed weights, and the word lengths[b]. From these the body forms
    logits  = (src . W_in^T) . mb^T                                  (two contractions over 1024)
    soft    = softmax over s of  (s < length ? logits : -1e9)        (row max, exp, row sum, quotient)
    scaled  = soft * probs * [s < length]
    align   = scaled / (row sum of scaled)
    attn    = tanh ([align . mb , src] . W_out^T)                    (contractions over 1024 and 2048)
  and stores attn, align and soft. Each stage is cut out of the body's payload terms so that a payload IS the
  composition of the stages (by unfolding), and the three result arrays are the per-batch blocks laid along the
  batch axis and then transposed to (t, b, .) as the program's last three host operations do.
-/
import proofs.«404635_j44478681317945_1_alg».proof.Proof.Gen.KernelIdeal.Skeleton
import Idealize.ShloMosaic.Lib.ValueIdx

noncomputable section

namespace Cert.KernelIdeal.Attn

open Idealize.ShloMosaic Idealize.ShloMosaic.ValueIdx Idealize.SL.Sem Cert.KernelIdeal Cert.KernelIdeal.Gen

/-! ## The blocks a grid point reads, as functions of the argument arrays -/

/-- Rows of batch b of source. -/
def srcBlk (A0 : Vec Ideal S64x128x1024 .f32) (b : Fin 64) : Vec Ideal S1x128x1024 .f32 :=
  fun y => A0 (ix3 b ⟨(y 1).val, (y 1).isLt⟩ ⟨(y 2).val, (y 2).isLt⟩)
/-- Rows of batch b of memory_bank. -/
def mbBlk (A1 : Vec Ideal S64x1024x1024 .f32) (b : Fin 64) : Vec Ideal S1x1024x1024 .f32 :=
  fun y => A1 (ix3 b ⟨(y 1).val, (y 1).isLt⟩ ⟨(y 2).val, (y 2).isLt⟩)
/-- Row b of probs, as a 1 x 1 x 1024 block. -/
def prBlk (A2 : Vec Ideal S64x1024 .f32) (b : Fin 64) : Vec Ideal S1x1x1024 .f32 :=
  fun y => A2 (ix2 b ⟨(y 2).val, (y 2).isLt⟩)
/-- W_in transposed: entry (d, e) is W_in (e, d). -/
def winT (A4 : Vec Ideal S1024x1024 .f32) : Vec Ideal S1024x1024 .f32 :=
  fun y => A4 (ix2 ⟨(y 1).val, (y 1).isLt⟩ ⟨(y 0).val, (y 0).isLt⟩)
/-- W_out transposed: entry (f, d) is W_out (d, f). -/
def woutT (A5 : Vec Ideal S1024x2048 .f32) : Vec Ideal S2048x1024 .f32 :=
  fun y => A5 (ix2 ⟨(y 1).val, (y 1).isLt⟩ ⟨(y 0).val, (y 0).isLt⟩)

/-! ## The body's stages -/

/-- logits (t, s) = sum_e (sum_d src (t, d) * W_in^T (d, e)) * mb (s, e). -/
def kLogits (x0 : Vec Ideal S1x128x1024 .f32) (x1 : Vec Ideal S1x1024x1024 .f32) (x3 : Vec Ideal S1024x1024 .f32) : FVec Ideal S128x1024 .f32 :=
  matmul dot_S128x1024_S1024x1024_S128x1024_1_1_0_0_n_n none
    (truncf .bf16 (matmul dot_S128x1024_S1024x1024_S128x1024_1_0_0_1_n_n none (truncf .bf16 (k0_pay5 x0) bitsLt_bf16_f32)
      (truncf .bf16 (shapeCast S1024x1024 x3 shapeCasts_S1024x1024_S1024x1024) bitsLt_bf16_f32) (constant S128x1024 .f32 0x00000000#32)) bitsLt_bf16_f32)
    (k0_pay7 x1) (constant S128x1024 .f32 0x00000000#32)

/-- The masked softmax of a logits block along s: positions s >= w are filled with -1e9 first. -/
def kSoft (lg : FVec Ideal S128x1024 .f32) (w : Elt Ideal .i32) : FVec Ideal S128x1024 .f32 :=
  have v22 : FVec Ideal S128x1024 .f32 := select (k0_pay8 (F := Ideal) w) lg (broadcast S128x1024 (Scalar.ofBits .f32 0xCE6E6B28#32))
  have v23 : FVec Ideal S128 .f32 := multiReduction .maximumf [1] S128 v22 0xFF800000#32 reduces_S128x1024_S128 (.inl rfl) rfl
  have v25 : FVec Ideal S128x1024 .f32 := broadcastTo S128x1024 (shapeCast S128x1 v23 shapeCasts_S128_S128x1) broadcasts_S128x1_S128x1024
  have v27 : FVec Ideal S128x1024 .f32 := exp (subf v22 v25)
  have v28 : FVec Ideal S128 .f32 := multiReduction .add [1] S128 v27 0x00000000#32 reduces_S128x1024_S128 (.inl rfl) rfl
  have v30 : FVec Ideal S128x1024 .f32 := broadcastTo S128x1024 (shapeCast S128x1 v28 shapeCasts_S128_S128x1) broadcasts_S128x1_S128x1024
  divf v27 v30

/-- The softmax times the probabilities of the keys, times the 0/1 mask. -/
def kScaled (sm : FVec Ideal S128x1024 .f32) (x2 : Vec Ideal S1x1x1024 .f32) (w : Elt Ideal .i32) : FVec Ideal S128x1024 .f32 :=
  mulf (mulf sm (broadcastTo S128x1024 (shapeCast S1x1024 x2 shapeCasts_S1x1x1024_S1x1024) broadcasts_S1x1024_S128x1024))
    (sitofp .f32 (extui 32 (k0_pay8 (F := Ideal) w) natLt_1_32))

/-- Each row's sum of a block, laid back along the row. -/
def kDen (sc : FVec Ideal S128x1024 .f32) : FVec Ideal S128x1024 .f32 :=
  broadcastTo S128x1024 (shapeCast S128x1 (multiReduction .add [1] S128 sc 0x00000000#32 reduces_S128x1024_S128 (.inl rfl) rfl) shapeCasts_S128_S128x1) broadcasts_S128x1_S128x1024

/-- tanh ([al . mb , src] . W_out^T), as a 1 x 128 x 1024 block. -/
def kAttn (x0 : Vec Ideal S1x128x1024 .f32) (x1 : Vec Ideal S1x1024x1024 .f32) (x4 : Vec Ideal S2048x1024 .f32) (al : FVec Ideal S128x1024 .f32) : FVec Ideal S1x128x1024 .f32 :=
  have v42 : FVec Ideal S128x1024 .f32 := matmul dot_S128x1024_S1024x1024_S128x1024_1_0_0_1_n_n none (truncf .bf16 al bitsLt_bf16_f32) (k0_pay7 x1) (constant S128x1024 .f32 0x00000000#32)
  have v43 : FVec Ideal S128x2048 .f32 := concatenate S128x2048 1 [⟨S128x1024, v42⟩, ⟨S128x1024, k0_pay5 x0⟩] concatenates_S128x1024_S128x1024_S128x2048_d1
  have v46 : FVec Ideal S128x1024 .f32 := matmul dot_S128x2048_S2048x1024_S128x1024_1_0_0_1_n_n none (truncf .bf16 v43 bitsLt_bf16_f32) (truncf .bf16 (k0_pay6 x4) bitsLt_bf16_f32) (constant S128x1024 .f32 0x00000000#32)
  shapeCast S1x128x1024 (tanh v46) shapeCasts_S128x1024_S1x128x1024

/-! ## The payloads are these stages composed -/

theorem pay9_eq (x0 : Vec Ideal S1x128x1024 .f32) (x1 : Vec Ideal S1x1024x1024 .f32) (x3 : Vec Ideal S1024x1024 .f32) (w : Elt Ideal .i32) :
    k0_pay9 x0 x1 x3 w = kSoft (kLogits x0 x1 x3) w := rfl
theorem pay10_eq (x0 : Vec Ideal S1x128x1024 .f32) (x1 : Vec Ideal S1x1024x1024 .f32) (x2 : Vec Ideal S1x1x1024 .f32) (x3 : Vec Ideal S1024x1024 .f32) (w : Elt Ideal .i32) :
    k0_pay10 x0 x1 x2 x3 w = kScaled (k0_pay9 x0 x1 x3 w) x2 w := rfl
theorem pay11_eq (x0 : Vec Ideal S1x128x1024 .f32) (x1 : Vec Ideal S1x1024x1024 .f32) (x2 : Vec Ideal S1x1x1024 .f32) (x3 : Vec Ideal S1024x1024 .f32) (w : Elt Ideal .i32) :
    k0_pay11 x0 x1 x2 x3 w = kDen (k0_pay10 x0 x1 x2 x3 w) := rfl
theorem pay2_eq (x0 : Vec Ideal S1x128x1024 .f32) (x1 : Vec Ideal S1x1024x1024 .f32) (x4 : Vec Ideal S2048x1024 .f32) (v36 v39 : FVec Ideal S128x1024 .f32) :
    k0_pay2 (k0_pay5 x0) (k0_pay6 x4) (k0_pay7 x1) v36 v39 = kAttn x0 x1 x4 (k0_pay1 v36 v39) := rfl

/-! ## What grid point b stores, and the three result arrays -/

variable (A0 : Vec Ideal S64x128x1024 .f32) (A1 : Vec Ideal S64x1024x1024 .f32) (A2 : Vec Ideal S64x1024 .f32)
  (L : Vec Ideal S64 .i32) (A4 : Vec Ideal S1024x1024 .f32) (A5 : Vec Ideal S1024x2048 .f32)

/-- The plain softmax block of batch b. -/
def outSoft (b : Fin 64) : Vec Ideal S1x128x1024 .f32 :=
  k0_pay4 (k0_pay9 (srcBlk A0 b) (mbBlk A1 b) (winT A4) (L (ix1 b)))
/-- The renormalised attention weights of batch b. -/
def outAlign (b : Fin 64) : Vec Ideal S1x128x1024 .f32 :=
  k0_pay3 (k0_pay10 (srcBlk A0 b) (mbBlk A1 b) (prBlk A2 b) (winT A4) (L (ix1 b))) (k0_pay11 (srcBlk A0 b) (mbBlk A1 b) (prBlk A2 b) (winT A4) (L (ix1 b)))
/-- The attentional hidden state of batch b. -/
def outAttn (b : Fin 64) : Vec Ideal S1x128x1024 .f32 :=
  k0_pay2 (k0_pay5 (srcBlk A0 b)) (k0_pay6 (woutT A5)) (k0_pay7 (mbBlk A1 b))
    (k0_pay10 (srcBlk A0 b) (mbBlk A1 b) (prBlk A2 b) (winT A4) (L (ix1 b))) (k0_pay11 (srcBlk A0 b) (mbBlk A1 b) (prBlk A2 b) (winT A4) (L (ix1 b)))

/-- Result 2, (t, b, s): the softmax block of batch b at (t, s). -/
def resSoft : Vec Ideal S128x64x1024 .f32 :=
  fun i => outSoft A0 A1 L A4 ⟨(i 1).val, (i 1).isLt⟩ (ix3 (0 : Fin 1) ⟨(i 0).val, (i 0).isLt⟩ ⟨(i 2).val, (i 2).isLt⟩)
/-- Result 1, (t, b, s): the attention weights of batch b at (t, s). -/
def resAlign : Vec Ideal S128x64x1024 .f32 :=
  fun i => outAlign A0 A1 A2 L A4 ⟨(i 1).val, (i 1).isLt⟩ (ix3 (0 : Fin 1) ⟨(i 0).val, (i 0).isLt⟩ ⟨(i 2).val, (i 2).isLt⟩)
/-- Result 0, (t, b, d): the hidden state of batch b at (t, d). -/
def resAttn : Vec Ideal S128x64x1024 .f32 :=
  fun i => outAttn A0 A1 A2 L A4 A5 ⟨(i 1).val, (i 1).isLt⟩ (ix3 (0 : Fin 1) ⟨(i 0).val, (i 0).isLt⟩ ⟨(i 2).val, (i 2).isLt⟩)

end Cert.KernelIdeal.Attn

end
-- ==== Proof.KMatmul.lean ====
/-
  A tpu.matmul into the zero accumulator, read at an output index over the extended reals: a plain sum over the
  contracted axis of the products of the operands' entries, for the three contraction layouts the body uses.
-/
import proofs.«404635_j44478681317945_1_alg».proof.Proof.Gen.KernelIdeal.Skeleton
import Idealize.ShloMosaic.Lib.ValueIdx
import Idealize.ShloMosaic.PureOps.Ideal.Laws

noncomputable section

namespace Cert.KernelIdeal.Attn

open Idealize.ShloMosaic Idealize.ShloMosaic.ValueIdx Idealize.SL.Sem Cert.KernelIdeal Cert.KernelIdeal.Gen

/-! ## The operand indices of each contraction, one coordinate at a time

  At output index i and contraction position q, the left operand is read at (i 0, q) in all three layouts; the right
  operand at (q, i 1) when its rows are contracted and at (i 1, q) when its columns are. -/

theorem nn_lhs_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem nn_lhs_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem nn_rhs_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem nn_rhs_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

theorem nt_lhs_0 (i : S128x1024.Idx) (q : dot_S128x1024_S1024x1024_S128x1024_1_1_0_0_n_n.contr.Idx) :
    (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
theorem nt_lhs_1 (i : S128x1024.Idx) (q : dot_S128x1024_S1024x1024_S128x1024_1_1_0_0_n_n.contr.Idx) :
    (dot_S128x1024_S1024x1024_S128x1024_1_1_0_0_n_n.lhsIdx i q 1).val = (q ⟨0, by decide⟩).val :=
  dot_S128x1024_S1024x1024_S128x1024_1_1_0_0_n_n.lhsIdx_val_of_single rfl i q
theorem nt_rhs_0 (i : S128x1024.Idx) (q : dot_S128x1024_S1024x1024_S128x1024_1_1_0_0_n_n.contr.Idx) :
    (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
theorem nt_rhs_1 (i : S128x1024.Idx) (q : dot_S128x1024_S1024x1024_S128x1024_1_1_0_0_n_n.contr.Idx) :
    (dot_S128x1024_S1024x1024_S128x1024_1_1_0_0_n_n.rhsIdx i q 1).val = (q ⟨0, by decide⟩).val :=
  dot_S128x1024_S1024x1024_S128x1024_1_1_0_0_n_n.rhsIdx_val_of_single rfl i q

theorem wide_lhs_0 (i : S128x1024.Idx) (q : dot_S128x2048_S2048x1024_S128x1024_1_0_0_1_n_n.contr.Idx) :
    (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
theorem wide_lhs_1 (i : S128x1024.Idx) (q : dot_S128x2048_S2048x1024_S128x1024_1_0_0_1_n_n.contr.Idx) :
    (dot_S128x2048_S2048x1024_S128x1024_1_0_0_1_n_n.lhsIdx i q 1).val = (q ⟨0, by decide⟩).val :=
  dot_S128x2048_S2048x1024_S128x1024_1_0_0_1_n_n.lhsIdx_val_of_single rfl i q
theorem wide_rhs_0 (i : S128x1024.Idx) (q : dot_S128x2048_S2048x1024_S128x1024_1_0_0_1_n_n.contr.Idx) :
    (dot_S128x2048_S2048x1024_S128x1024_1_0_0_1_n_n.rhsIdx i q 0).val = (q ⟨0, by decide⟩).val :=
  dot_S128x2048_S2048x1024_S128x1024_1_0_0_1_n_n.rhsIdx_val_of_single rfl i q
theorem wide_rhs_1 (i : S128x1024.Idx) (q : dot_S128x2048_S2048x1024_S128x1024_1_0_0_1_n_n.contr.Idx) :
    (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

/-! ## The three products at an index -/

/-- rows x columns: (l . r) (t, e) = sum_k l (t, k) * r (k, e). -/
theorem matmul_nn_apply (l : FVec Ideal S128x1024 .bf16) (r : FVec Ideal S1024x1024 .bf16) (t : Fin 128) (e : Fin 1024) :
    matmul dot_S128x1024_S1024x1024_S128x1024_1_0_0_1_n_n none l r (constant S128x1024 .f32 0x00000000#32) (ix2 t e)
      = ∑ k : Fin 1024, l (ix2 t k) * r (ix2 k e) := by
  refine (Ideal.matmul_constant_zero_apply dot_S128x1024_S1024x1024_S128x1024_1_0_0_1_n_n none l r (ix2 t e)).trans ?_
  rw [← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 t e) ((contrEquiv1 dot_S128x1024_S1024x1024_S128x1024_1_0_0_1_n_n 1024 rfl rfl).symm k) = ix2 t k := funext fun a => Fin.ext (by
    match a with
    | ⟨0, _⟩ => exact nn_lhs_0 _ _
    | ⟨1, _⟩ => exact (nn_lhs_1 _ _).trans hk)
  have er : dot_S128x1024_S1024x1024_S128x1024_1_0_0_1_n_n.rhsIdx (ix2 t e) ((contrEquiv1 dot_S128x1024_S1024x1024_S128x1024_1_0_0_1_n_n 1024 rfl rfl).symm k) = ix2 k e := funext fun a => Fin.ext (by
    match a with
    | ⟨0, _⟩ => exact (nn_rhs_0 _ _).trans hk
    | ⟨1, _⟩ => exact nn_rhs_1 _ _)
  rw [el, er]

/-- rows x rows: (l . r^T) (t, s) = sum_k l (t, k) * r (s, k). -/
theorem matmul_nt_apply (l : FVec Ideal S128x1024 .bf16) (r : FVec Ideal S1024x1024 .bf16) (t : Fin 128) (s : Fin 1024) :
    matmul dot_S128x1024_S1024x1024_S128x1024_1_1_0_0_n_n none l r (constant S128x1024 .f32 0x00000000#32) (ix2 t s)
      = ∑ k : Fin 1024, l (ix2 t k) * r (ix2 s k) := by
  refine (Ideal.matmul_constant_zero_apply dot_S128x1024_S1024x1024_S128x1024_1_1_0_0_n_n none l r (ix2 t s)).trans ?_
  rw [← Equiv.sum_comp (contrEquiv1 dot_S128x1024_S1024x1024_S128x1024_1_1_0_0_n_n 1024 rfl rfl).symm]
  refine Finset.sum_congr rfl fun k _ => ?_
  have hk := contrEquiv1_symm_val dot_S128x1024_S1024x1024_S128x1024_1_1_0_0_n_n 1024 rfl rfl k
  have el : dot_S128x1024_S1024x1024_S128x1024_1_1_0_0_n_n.lhsIdx (ix2 t s) ((contrEquiv1 dot_S128x1024_S1024x1024_S128x1024_1_1_0_0_n_n 1024 rfl rfl).symm k) = ix2 t k := funext fun a => Fin.ext (by
    match a with
    | ⟨0, _⟩ => exact nt_lhs_0 _ _
    | ⟨1, _⟩ => exact (nt_lhs_1 _ _).trans hk)
  have er : dot_S128x1024_S1024x1024_S128x1024_1_1_0_0_n_n.rhsIdx (ix2 t s) ((contrEquiv1 dot_S128x1024_S1024x1024_S128x1024_1_1_0_0_n_n 1024 rfl rfl).symm k) = ix2 s k := funext fun a => Fin.ext (by
    match a with
    | ⟨0, _⟩ => exact nt_rhs_0 _ _
    | ⟨1, _⟩ => exact (nt_rhs_1 _ _).trans hk)
  rw [el, er]

/-- The wide product over 2048: (l . r) (t, d) = sum_k l (t, k) * r (k, d). -/
theorem matmul_wide_apply (l : FVec Ideal S128x2048 .bf16) (r : FVec Ideal S2048x1024 .bf16) (t : Fin 128) (d : Fin 1024) :
    matmul dot_S128x2048_S2048x1024_S128x1024_1_0_0_1_n_n none l r (constant S128x1024 .f32 0x00000000#32) (ix2 t d)
      = ∑ k : Fin 2048, l (ix2 t k) * r (ix2 k d) := by
  refine (Ideal.matmul_constant_zero_apply dot_S128x2048_S2048x1024_S128x1024_1_0_0_1_n_n none l r (ix2 t d)).trans ?_
  rw [← Equiv.sum_comp (contrEquiv1 dot_S128x2048_S2048x1024_S128x1024_1_0_0_1_n_n 2048 rfl rfl).symm]
  refine Finset.sum_congr rfl fun k _ => ?_
  have hk := contrEquiv1_symm_val dot_S128x2048_S2048x1024_S128x1024_1_0_0_1_n_n 2048 rfl rfl k
  have el : dot_S128x2048_S2048x1024_S128x1024_1_0_0_1_n_n.lhsIdx (ix2 t d) ((contrEquiv1 dot_S128x2048_S2048x1024_S128x1024_1_0_0_1_n_n 2048 rfl rfl).symm k) = ix2 t k := funext fun a => Fin.ext (by
    match a with
    | ⟨0, _⟩ => exact wide_lhs_0 _ _
    | ⟨1, _⟩ => exact (wide_lhs_1 _ _).trans hk)
  have er : dot_S128x2048_S2048x1024_S128x1024_1_0_0_1_n_n.rhsIdx (ix2 t d) ((contrEquiv1 dot_S128x2048_S2048x1024_S128x1024_1_0_0_1_n_n 2048 rfl rfl).symm k) = ix2 k d := funext fun a => Fin.ext (by
    match a with
    | ⟨0, _⟩ => exact (wide_rhs_0 _ _).trans hk
    | ⟨1, _⟩ => exact wide_rhs_1 _ _)
  rw [el, er]

end Cert.KernelIdeal.Attn

end
-- ==== Proof.Logits.lean ====
/-
  The logits block of batch b is the reference's batched score at (b, t, s):
  sum_e (sum_d source (b, t, d) * W_in (e, d)) * memory_bank (b, s, e).
-/
import proofs.«404635_j44478681317945_1_alg».proof.Proof.AttnDefs
import proofs.«404635_j44478681317945_1_alg».proof.Proof.KMatmul
import proofs.«404635_j44478681317945_1_alg».proof.Proof.RefRead
import Idealize.ShloMosaic.Lib.Pipeline.Value

noncomputable section

namespace Cert.KernelIdeal.Attn

open Idealize.ShloMosaic Idealize.ShloMosaic.ValueIdx Idealize.SL.Sem Cert.KernelIdeal Cert.KernelIdeal.Gen

variable (A0 : Vec Ideal S64x128x1024 .f32) (A1 : Vec Ideal S64x1024x1024 .f32) (A2 : Vec Ideal S64x1024 .f32)
  (L : Vec Ideal S64 .i32) (A4 : Vec Ideal S1024x1024 .f32) (A5 : Vec Ideal S1024x2048 .f32)

/-- The source block with its leading unit axis dropped, at (t, d): source (b, t, d). -/
theorem pay5_src_apply (b : Fin 64) (t : Fin 128) (d : Fin 1024) :
    k0_pay5 (srcBlk A0 b) (ix2 t d) = A0 (ix3 b t d) := by
  unfold k0_pay5
  exact shapeCast_dropUnit_apply (n := 2) ![128, 1024] (srcBlk A0 b) shapeCasts_S1x128x1024_S128x1024 (ix2 t d)

/-- The memory-bank block with its leading unit axis dropped, at (s, e): memory_bank (b, s, e). -/
theorem pay7_mb_apply (b : Fin 64) (s e : Fin 1024) :
    k0_pay7 (mbBlk A1 b) (ix2 s e) = A1 (ix3 b s e) := by
  unfold k0_pay7
  exact shapeCast_dropUnit_apply (n := 2) ![1024, 1024] (mbBlk A1 b) shapeCasts_S1x1024x1024_S1024x1024 (ix2 s e)

/-- The reference's first contraction at (b, t, e): sum_d source (b, t, d) * W_in (e, d). -/
theorem val_v0_at (b : Fin 64) (t : Fin 128) (e : Fin 1024) :
    Cert.ReferenceIdeal.ReadP.val_main_v0 (F := Ideal) A0 A4 (ix3 b t e) = ∑ d : Fin 1024, A0 (ix3 b t d) * A4 (ix2 e d) := by
  rw [Cert.ReferenceIdeal.ReadP.val_main_v0_apply]
  refine Finset.sum_congr rfl fun d _ => ?_
  have el : Cert.ReferenceIdeal.ReadP.lidx_main_v0 (ix3 b t e) d = ix3 b t d :=
    funext fun a => match a with | ⟨0, _⟩ => rfl | ⟨1, _⟩ => rfl | ⟨2, _⟩ => rfl
  have er : Cert.ReferenceIdeal.ReadP.ridx_main_v0 (ix3 b t e) d = ix2 e d :=
    funext fun a => match a with | ⟨0, _⟩ => rfl | ⟨1, _⟩ => rfl
  rw [el, er]

theorem logits_eq (b : Fin 64) (t : Fin 128) (s : Fin 1024) :
    kLogits (srcBlk A0 b) (mbBlk A1 b) (winT A4) (ix2 t s) = Cert.ReferenceIdeal.ReadP.val_main_v1 (F := Ideal) A0 A1 A4 (ix3 b t s) := by
  unfold kLogits
  rw [matmul_nt_apply, Cert.ReferenceIdeal.ReadP.val_main_v1_apply]
  refine Finset.sum_congr rfl fun e _ => ?_
  have hl : Cert.ReferenceIdeal.ReadP.lidx_main_v1 (ix3 b t s) e = ix3 b t e :=
    funext fun a => match a with | ⟨0, _⟩ => rfl | ⟨1, _⟩ => rfl | ⟨2, _⟩ => rfl
  have hr : Cert.ReferenceIdeal.ReadP.ridx_main_v1 (ix3 b t s) e = ix3 b s e :=
    funext fun a => match a with | ⟨0, _⟩ => rfl | ⟨1, _⟩ => rfl | ⟨2, _⟩ => rfl
  rw [hl, hr, val_v0_at, pay7_mb_apply, truncf_apply, matmul_nn_apply]
  refine congrArg (· * A1 (ix3 b s e)) (Finset.sum_congr rfl fun d _ => ?_)
  rw [truncf_apply, truncf_apply, pay5_src_apply, shapeCast_self]
  rfl

end Cert.KernelIdeal.Attn

end
-- ==== Proof.LibColumn.lean ====
/-
  General lemmas: a column kept beside a matrix (jnp's keepdims=True).
  A rank-1 array cast to a column reads the operand at the row; a column broadcast across a matrix's columns reads the
  column at the row. (The library has the leading-unit-axis casts and the row broadcast; these are the trailing-unit-axis
  forms every kernel with a keepdims row reduction meets.)
-/
import Idealize.ShloMosaic.Lib.ValueIdx
import Idealize.ShloMosaic.Lib.Pipeline.Value

noncomputable section

open Idealize.ShloMosaic Idealize.ShloMosaic.ValueIdx

namespace Cert.Lib.Column

/-- An `[a]` array cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A column `[a, 1]` broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.Softmax.lean ====
/-
  The masked softmax of a block that agrees with the reference's scores on batch b is the reference's softmax there.

  Both sides compute, at (t, s), with m (t, k) = (k < length ? score (t, k) : -1e9):
    exp (m (t, s) - max_k m (t, k)) / sum_k exp (m (t, k) - max_k' m (t, k')).
  Each stage is read at an index on the two sides and the readings are matched: the mask bit, the masked scores,
  the row maximum (a fold of max from -inf over the 1024 keys), its copy along the row, the exponential, the row
  sum (from zero), its copy along the row, and the quotient.
-/
import proofs.«404635_j44478681317945_1_alg».proof.Proof.AttnDefs
import proofs.«404635_j44478681317945_1_alg».proof.Proof.RefRead
import proofs.«404635_j44478681317945_1_alg».proof.Proof.LibColumn

noncomputable section

namespace Cert.KernelIdeal.Attn

open Idealize.ShloMosaic Idealize.ShloMosaic.ValueIdx Idealize.SL.Sem Cert.KernelIdeal Cert.KernelIdeal.Gen
open Cert.ReferenceIdeal.ReadP

variable (A0 : Vec Ideal S64x128x1024 .f32) (A1 : Vec Ideal S64x1024x1024 .f32) (A2 : Vec Ideal S64x1024 .f32)
  (L : Vec Ideal S64 .i32) (A4 : Vec Ideal S1024x1024 .f32) (A5 : Vec Ideal S1024x2048 .f32)

/-! ## The block's side: each operation read at an index -/

/-- The row index t with the column k put back is (t, k). -/
theorem soft_lift_row (t : Fin 128) (k : Fin (S128x1024.size 1)) :
    reduces_S128x1024_S128.lift (ix1 t) k = ix2 t (⟨k.val, k.isLt⟩ : Fin 1024) := by
  funext c; apply Fin.ext
  match c with
  | ⟨0, _⟩ => rfl
  | ⟨1, _⟩ => rfl

/-- The mask bit at (t, s): s below the length word, as signed words. -/
theorem soft_mask_apply (w : Elt Ideal .i32) (t : Fin 128) (s : Fin 1024) :
    k0_pay8 (F := Ideal) w (ix2 t s) = IntOp.cmpi .slt (BitVec.ofNat 32 s.val) w := by
  unfold k0_pay8
  show IntOp.cmpi .slt (iota .tc S128x1024 32 [1] iota_S128x1024_d1_w32 (ix2 t s)) (broadcast S128x1024 w (ix2 t s)) = _
  rw [iota_single_apply, broadcast_apply]

/-- A row's maximum from -inf, read at row t. -/
theorem soft_rowMax_apply (v : FVec Ideal S128x1024 .f32) (t : Fin 128) :
    multiReduction .maximumf [1] S128 v 0xFF800000#32 reduces_S128x1024_S128 (.inl rfl) rfl (ix1 t)
      = (Finset.univ : Finset (Fin 1024)).fold max (Ideal.ofBits .f32 0xFF800000#32) (fun k => v (ix2 t k)) := by
  refine (Ideal.multiReduction_maximumf_single v _ reduces_S128x1024_S128 (.inl rfl) rfl (ix1 t)).trans ?_
  have hf : (v ∘ reduces_S128x1024_S128.lift (ix1 t)) = fun k : Fin 1024 => v (ix2 t k) :=
    funext fun k => congrArg v (soft_lift_row t k)
  exact congrArg (fun f => Finset.fold max (Ideal.ofBits .f32 0xFF800000#32) f (Finset.univ : Finset (Fin 1024))) hf

/-- A row's sum, read at row t. -/
theorem soft_rowSum_apply (v : FVec Ideal S128x1024 .f32) (t : Fin 128) :
    multiReduction .add [1] S128 v 0x00000000#32 reduces_S128x1024_S128 (.inl rfl) rfl (ix1 t)
      = ∑ k : Fin 1024, v (ix2 t k) := by
  refine (Ideal.multiReduction_add_single v _ reduces_S128x1024_S128 (.inl rfl) rfl (ix1 t)).trans ?_
  exact Finset.sum_congr rfl fun k _ => congrArg v (soft_lift_row t k)

/-- A per-row value laid back along its row reads the row's value. -/
theorem soft_col_apply (v : FVec Ideal S128 .f32) (t : Fin 128) (s : Fin 1024) :
    broadcastTo S128x1024 (shapeCast S128x1 v shapeCasts_S128_S128x1) broadcasts_S128x1_S128x1024 (ix2 t s) = v (ix1 t) := by
  rw [Cert.Lib.Column.broadcastTo_a1_ab_apply, Cert.Lib.Column.shapeCast_a_a1_apply]

/-! ## The reference's side, and the stages matched -/

/-- The reference's mask at (b, t, s): s below lengths[b], as signed words. -/
theorem soft_ref_mask (b : Fin 64) (t : Fin 128) (s : Fin 1024) :
    val_main_call0_v1 (F := Ideal) L (ix3 b t s) = IntOp.cmpi .slt (BitVec.ofNat 32 s.val) (L (ix1 b)) := by
  rw [val_main_call0_v1_apply, val_main_v8_apply, val_main_v7_apply, val_main_v5_apply, val_main_v3_apply,
    val_main_v2_apply, val_main_v6_apply, val_main_v4_apply]
  have e : idx_main_v4 (idx_main_v6 (idx_main_v8 (idx_main_call0_v1 (ix3 b t s)))) = ix1 b :=
    funext fun a => match a with | ⟨0, _⟩ => rfl
  rw [e]

/-- The reference's masked scores at (b, t, s). -/
theorem soft_ref_masked (b : Fin 64) (t : Fin 128) (s : Fin 1024) :
    val_main_v9 (F := Ideal) A0 A1 L A4 (ix3 b t s)
      = Scalar.select (IntOp.cmpi .slt (BitVec.ofNat 32 s.val) (L (ix1 b))) (val_main_v1 (F := Ideal) A0 A1 A4 (ix3 b t s))
          (Ideal.ofBits .f32 0xCE6E6B28#32) := by
  rw [val_main_v9_apply, soft_ref_mask, val_main_call0_v2_apply, val_main_call0_v0_apply, val_main_cst_apply]
  rfl

/-- The kernel's masked block is the reference's masked scores on batch b. -/
theorem soft_masked_eq (b : Fin 64) (lg : FVec Ideal S128x1024 .f32)
    (hlg : ∀ (t : Fin 128) (s : Fin 1024), lg (ix2 t s) = val_main_v1 (F := Ideal) A0 A1 A4 (ix3 b t s))
    (t : Fin 128) (s : Fin 1024) :
    select (k0_pay8 (F := Ideal) (L (ix1 b))) lg (broadcast S128x1024 (Scalar.ofBits .f32 0xCE6E6B28#32)) (ix2 t s)
      = val_main_v9 (F := Ideal) A0 A1 L A4 (ix3 b t s) := by
  rw [select_apply, soft_mask_apply, broadcast_apply, hlg, soft_ref_masked]
  rfl

/-- The score index (b, t) with the key k put back is (b, t, k). -/
theorem soft_ref_lift (h : (⟨3, ![64, 128, 1024]⟩ : Shape).Reduces [2] ⟨2, ![64, 128]⟩) (b : Fin 64) (t : Fin 128)
    (k : Fin ((⟨3, ![64, 128, 1024]⟩ : Shape).size 2)) :
    h.lift (ix2 b t) k = ix3 b t (⟨k.val, k.isLt⟩ : Fin 1024) := by
  funext c; apply Fin.ext
  match c with
  | ⟨0, _⟩ => rfl
  | ⟨1, _⟩ => rfl
  | ⟨2, _⟩ => rfl

/-- The reference's row maximum at (b, t): the maximum from -inf of the masked scores along the keys.
    (Its second maximum with -inf changes nothing: a maximum taken from -inf is at least -inf.) -/
theorem soft_ref_rowMax (b : Fin 64) (t : Fin 128) :
    val_main_v12 (F := Ideal) A0 A1 L A4 (ix2 b t)
      = (Finset.univ : Finset (Fin 1024)).fold max (Ideal.ofBits .f32 0xFF800000#32)
          (fun k => val_main_v9 (F := Ideal) A0 A1 L A4 (ix3 b t k)) := by
  have h : (⟨3, ![64, 128, 1024]⟩ : Shape).Reduces [2] ⟨2, ![64, 128]⟩ := by decide
  have e10 : val_main_v10 (F := Ideal) A0 A1 L A4 (ix2 b t)
      = (Finset.univ : Finset (Fin 1024)).fold max (Ideal.ofBits .f32 0xFF800000#32)
          (fun k => val_main_v9 (F := Ideal) A0 A1 L A4 (ix3 b t k)) := by
    unfold val_main_v10
    refine (Host.reduce_eq_fold_single FloatOps.maximumf _ _ _ h _ (ix2 b t)).trans ?_
    have hf : (val_main_v9 (F := Ideal) A0 A1 L A4 ∘ h.lift (ix2 b t))
        = fun k : Fin 1024 => val_main_v9 (F := Ideal) A0 A1 L A4 (ix3 b t k) :=
      funext fun k => congrArg (val_main_v9 (F := Ideal) A0 A1 L A4) (soft_ref_lift h b t k)
    exact congrArg (fun f => Finset.fold max (Ideal.ofBits .f32 0xFF800000#32) f (Finset.univ : Finset (Fin 1024))) hf
  rw [val_main_v12_apply, val_main_v11_apply, val_main_cst_1_apply, e10]
  exact max_eq_right ((Finset.le_fold_max _).2 (Or.inl le_rfl))

/-- The reference's row maximum laid back along the keys. -/
theorem soft_ref_maxCol (b : Fin 64) (t : Fin 128) (s : Fin 1024) :
    val_main_v14 (F := Ideal) A0 A1 L A4 (ix3 b t s) = val_main_v12 (F := Ideal) A0 A1 L A4 (ix2 b t) := by
  rw [val_main_v14_apply, val_main_v13_apply]
  exact congrArg (val_main_v12 (F := Ideal) A0 A1 L A4) (funext fun a => match a with | ⟨0, _⟩ => rfl | ⟨1, _⟩ => rfl)

/-- The reference's numerator at (b, t, s): exp of the masked score less its row's maximum. -/
theorem soft_ref_num (b : Fin 64) (t : Fin 128) (s : Fin 1024) :
    val_main_v16 (F := Ideal) A0 A1 L A4 (ix3 b t s)
      = Ideal.exp (val_main_v9 (F := Ideal) A0 A1 L A4 (ix3 b t s) - val_main_v12 (F := Ideal) A0 A1 L A4 (ix2 b t)) := by
  rw [val_main_v16_apply, val_main_v15_apply, soft_ref_maxCol]
  rfl

/-- The reference's row sum at (b, t): the numerators summed along the keys (the sum starts from zero). -/
theorem soft_ref_rowSum (b : Fin 64) (t : Fin 128) :
    val_main_v17 (F := Ideal) A0 A1 L A4 (ix2 b t) = ∑ k : Fin 1024, val_main_v16 (F := Ideal) A0 A1 L A4 (ix3 b t k) := by
  rw [val_main_v17_apply, val_main_cst_2_apply]
  show Ideal.ofBits .f32 0x00000000#32 + _ = _
  rw [Ideal.ofBits_zero_f32, zero_add]
  exact Finset.sum_congr rfl fun k _ => congrArg (val_main_v16 (F := Ideal) A0 A1 L A4)
    (funext fun a => match a with | ⟨0, _⟩ => rfl | ⟨1, _⟩ => rfl | ⟨2, _⟩ => rfl)

/-- The reference's row sum laid back along the keys. -/
theorem soft_ref_sumCol (b : Fin 64) (t : Fin 128) (s : Fin 1024) :
    val_main_v19 (F := Ideal) A0 A1 L A4 (ix3 b t s) = val_main_v17 (F := Ideal) A0 A1 L A4 (ix2 b t) := by
  rw [val_main_v19_apply, val_main_v18_apply]
  exact congrArg (val_main_v17 (F := Ideal) A0 A1 L A4) (funext fun a => match a with | ⟨0, _⟩ => rfl | ⟨1, _⟩ => rfl)

/-- A block's rows less their maxima, exponentiated: the softmax's numerator. -/
def soft_num (v : FVec Ideal S128x1024 .f32) : FVec Ideal S128x1024 .f32 :=
  exp (subf v (broadcastTo S128x1024 (shapeCast S128x1
    (multiReduction .maximumf [1] S128 v 0xFF800000#32 reduces_S128x1024_S128 (.inl rfl) rfl) shapeCasts_S128_S128x1) broadcasts_S128x1_S128x1024))

/-- A block's row sums laid back along the rows: the softmax's denominator. -/
def soft_den (n : FVec Ideal S128x1024 .f32) : FVec Ideal S128x1024 .f32 :=
  broadcastTo S128x1024 (shapeCast S128x1
    (multiReduction .add [1] S128 n 0x00000000#32 reduces_S128x1024_S128 (.inl rfl) rfl) shapeCasts_S128_S128x1) broadcasts_S128x1_S128x1024

/-- The kernel's stage is the quotient of these two over the masked block. -/
theorem soft_kSoft_eq (lg : FVec Ideal S128x1024 .f32) (w : Elt Ideal .i32) :
    kSoft lg w = divf (soft_num (select (k0_pay8 (F := Ideal) w) lg (broadcast S128x1024 (Scalar.ofBits .f32 0xCE6E6B28#32))))
      (soft_den (soft_num (select (k0_pay8 (F := Ideal) w) lg (broadcast S128x1024 (Scalar.ofBits .f32 0xCE6E6B28#32))))) := rfl

/-- Over a block equal to the reference's masked scores on batch b, the numerators agree. -/
theorem soft_num_eq (b : Fin 64) (v : FVec Ideal S128x1024 .f32)
    (hv : ∀ (t : Fin 128) (s : Fin 1024), v (ix2 t s) = val_main_v9 (F := Ideal) A0 A1 L A4 (ix3 b t s))
    (t : Fin 128) (s : Fin 1024) :
    soft_num v (ix2 t s) = val_main_v16 (F := Ideal) A0 A1 L A4 (ix3 b t s) := by
  rw [soft_ref_num, soft_ref_rowMax]
  unfold soft_num
  show Ideal.exp (v (ix2 t s) - broadcastTo S128x1024 (shapeCast S128x1
    (multiReduction .maximumf [1] S128 v 0xFF800000#32 reduces_S128x1024_S128 (.inl rfl) rfl) shapeCasts_S128_S128x1) broadcasts_S128x1_S128x1024 (ix2 t s)) = _
  rw [soft_col_apply, soft_rowMax_apply, hv]
  have hf : (fun k : Fin 1024 => v (ix2 t k)) = fun k => val_main_v9 (F := Ideal) A0 A1 L A4 (ix3 b t k) :=
    funext fun k => hv t k
  rw [hf]

/-- Over numerators equal to the reference's on batch b, the denominators agree. -/
theorem soft_den_eq (b : Fin 64) (n : FVec Ideal S128x1024 .f32)
    (hn : ∀ (t : Fin 128) (s : Fin 1024), n (ix2 t s) = val_main_v16 (F := Ideal) A0 A1 L A4 (ix3 b t s))
    (t : Fin 128) (s : Fin 1024) :
    soft_den n (ix2 t s) = val_main_v19 (F := Ideal) A0 A1 L A4 (ix3 b t s) := by
  rw [soft_ref_sumCol, soft_ref_rowSum]
  unfold soft_den
  rw [soft_col_apply, soft_rowSum_apply]
  exact Finset.sum_congr rfl fun k _ => hn t k

theorem soft_eq (b : Fin 64) (lg : FVec Ideal S128x1024 .f32)
    (hlg : ∀ (t : Fin 128) (s : Fin 1024), lg (ix2 t s) = Cert.ReferenceIdeal.ReadP.val_main_v1 (F := Ideal) A0 A1 A4 (ix3 b t s))
    (t : Fin 128) (s : Fin 1024) :
    kSoft lg (L (ix1 b)) (ix2 t s) = Cert.ReferenceIdeal.ReadP.val_main_v20 (F := Ideal) A0 A1 L A4 (ix3 b t s) := by
  have hv := soft_masked_eq A0 A1 L A4 b lg hlg
  have hn := soft_num_eq A0 A1 L A4 b _ hv
  rw [soft_kSoft_eq, divf_apply, val_main_v20_apply, hn t s, soft_den_eq A0 A1 L A4 b _ hn t s]
  rfl

end Cert.KernelIdeal.Attn

end
-- ==== Proof.Rescale.lean ====
/-
  Rescaling by the keys' probabilities, masking again and renormalising: stage by stage the block of batch b is the
  reference's array at (b, t, s), given that the softmax block is.
-/
import proofs.«404635_j44478681317945_1_alg».proof.Proof.AttnDefs
import proofs.«404635_j44478681317945_1_alg».proof.Proof.RefRead
import proofs.«404635_j44478681317945_1_alg».proof.Proof.LibColumn
import Idealize.ShloMosaic.Lib.ValueLayout
import Idealize.ShloMosaic.Lib.KernelVsHost

noncomputable section

namespace Cert.KernelIdeal.Attn

open Idealize.ShloMosaic Idealize.ShloMosaic.ValueIdx Idealize.SL.Sem Cert.KernelIdeal Cert.KernelIdeal.Gen

variable (A0 : Vec Ideal S64x128x1024 .f32) (A1 : Vec Ideal S64x1024x1024 .f32) (A2 : Vec Ideal S64x1024 .f32)
  (L : Vec Ideal S64 .i32) (A4 : Vec Ideal S1024x1024 .f32) (A5 : Vec Ideal S1024x2048 .f32)

/-! ## The mask: the same bit on both sides -/

/-- The kernel's mask at (t, s): is s, as a 32-bit word, below the length, signed? -/
theorem rescale_mask_kernel (w : Elt Ideal .i32) (t : Fin 128) (s : Fin 1024) :
    k0_pay8 (F := Ideal) w (ix2 t s) = IntOp.cmpi .slt (BitVec.ofNat 32 s.val) w := by
  unfold k0_pay8
  show IntOp.cmpi .slt (iota .tc S128x1024 32 [1] iota_S128x1024_d1_w32 (ix2 t s)) w = _
  rw [iota_single_apply]

/-- The reference's mask at (b, 0, s) is the same comparison against the length of batch b. -/
theorem rescale_mask_ref (b : Fin 64) (s : Fin 1024) :
    Cert.ReferenceIdeal.ReadP.val_main_v8 (F := Ideal) L (ix3 b (0 : Fin 1) s)
      = IntOp.cmpi .slt (BitVec.ofNat 32 s.val) (L (ix1 b)) := by
  rw [Cert.ReferenceIdeal.ReadP.val_main_v8_apply, Cert.ReferenceIdeal.ReadP.val_main_v7_apply,
    Cert.ReferenceIdeal.ReadP.val_main_v5_apply, Cert.ReferenceIdeal.ReadP.val_main_v3_apply,
    Cert.ReferenceIdeal.ReadP.val_main_v2_apply, Cert.ReferenceIdeal.ReadP.val_main_v6_apply,
    Cert.ReferenceIdeal.ReadP.val_main_v4_apply]
  exact congrArg (fun j => IntOp.cmpi .slt (BitVec.ofNat 32 s.val) (L j))
    (funext fun a => match a with | ⟨0, _⟩ => rfl)

/-- The mask as a number: the kernel widens the bit to a word and converts it signed, the reference converts the bit
    unsigned; both are 0 or 1. -/
theorem rescale_maskf_eq (b : Fin 64) (t : Fin 128) (s : Fin 1024) :
    (sitofp .f32 (extui 32 (k0_pay8 (F := Ideal) (L (ix1 b))) natLt_1_32) : FVec Ideal S128x1024 .f32) (ix2 t s)
      = Cert.ReferenceIdeal.ReadP.val_main_v25 (F := Ideal) L (ix3 b t s) := by
  rw [sitofp_extui_eq_uitofp, Cert.ReferenceIdeal.ReadP.val_main_v25_apply, Cert.ReferenceIdeal.ReadP.val_main_v24_apply]
  have hi : Cert.ReferenceIdeal.ReadP.idx_main_v25 (ix3 b t s) = ix3 b (0 : Fin 1) s :=
    funext fun a => match a with | ⟨0, _⟩ => rfl | ⟨1, _⟩ => rfl | ⟨2, _⟩ => rfl
  rw [hi, rescale_mask_ref]
  show FloatOps.uitofp .f32 (k0_pay8 (F := Ideal) (L (ix1 b)) (ix2 t s)) = _
  rw [rescale_mask_kernel]

/-! ## The probabilities of the keys -/

/-- The kernel's row of probabilities, laid down the 128 rows, at (t, s) is probs (b, s). -/
theorem rescale_probs_kernel (b : Fin 64) (t : Fin 128) (s : Fin 1024) :
    broadcastTo S128x1024 (shapeCast S1x1024 (prBlk A2 b) shapeCasts_S1x1x1024_S1x1024) broadcasts_S1x1024_S128x1024 (ix2 t s)
      = A2 (ix2 b s) := by
  rw [broadcastTo_1b_ab_apply, shapeCast_1ab_ab_apply]
  rfl

/-- The reference's broadcast of probs at (b, t, s) is probs (b, s). -/
theorem rescale_probs_ref (b : Fin 64) (t : Fin 128) (s : Fin 1024) :
    Cert.ReferenceIdeal.ReadP.val_main_v22 (F := Ideal) A2 (ix3 b t s) = A2 (ix2 b s) := by
  rw [Cert.ReferenceIdeal.ReadP.val_main_v22_apply, Cert.ReferenceIdeal.ReadP.val_main_v21_apply]
  exact congrArg A2 (funext fun a => match a with | ⟨0, _⟩ => rfl | ⟨1, _⟩ => rfl)

theorem scaled_eq (b : Fin 64) (sm : FVec Ideal S128x1024 .f32)
    (hsm : ∀ (t : Fin 128) (s : Fin 1024), sm (ix2 t s) = Cert.ReferenceIdeal.ReadP.val_main_v20 (F := Ideal) A0 A1 L A4 (ix3 b t s))
    (t : Fin 128) (s : Fin 1024) :
    kScaled sm (prBlk A2 b) (L (ix1 b)) (ix2 t s) = Cert.ReferenceIdeal.ReadP.val_main_v26 (F := Ideal) A0 A1 A2 L A4 (ix3 b t s) := by
  unfold kScaled
  rw [mulf_apply, mulf_apply, Cert.ReferenceIdeal.ReadP.val_main_v26_apply, Cert.ReferenceIdeal.ReadP.val_main_v23_apply,
    hsm, rescale_probs_kernel, rescale_maskf_eq, rescale_probs_ref]
  rfl

theorem den_eq (b : Fin 64) (sc : FVec Ideal S128x1024 .f32)
    (hsc : ∀ (t : Fin 128) (s : Fin 1024), sc (ix2 t s) = Cert.ReferenceIdeal.ReadP.val_main_v26 (F := Ideal) A0 A1 A2 L A4 (ix3 b t s))
    (t : Fin 128) (s : Fin 1024) :
    kDen sc (ix2 t s) = Cert.ReferenceIdeal.ReadP.val_main_v29 (F := Ideal) A0 A1 A2 L A4 (ix3 b t s) := by
  unfold kDen
  rw [Cert.Lib.Column.broadcastTo_a1_ab_apply, Cert.Lib.Column.shapeCast_a_a1_apply]
  refine (Ideal.multiReduction_add_single sc _ reduces_S128x1024_S128 _ _ (ix1 t)).trans ?_
  rw [Cert.ReferenceIdeal.ReadP.val_main_v29_apply, Cert.ReferenceIdeal.ReadP.val_main_v28_apply,
    Cert.ReferenceIdeal.ReadP.val_main_v27_apply, Cert.ReferenceIdeal.ReadP.val_main_cst_3_apply]
  show _ = Ideal.ofBits .f32 0x00000000#32 + _
  rw [Ideal.ofBits_zero_f32, zero_add]
  refine Finset.sum_congr rfl fun k _ => ?_
  have hl : reduces_S128x1024_S128.lift (ix1 t) k = ix2 t (k : Fin 1024) :=
    funext fun a => Fin.ext (match a with | ⟨0, _⟩ => rfl | ⟨1, _⟩ => rfl)
  have hr : Cert.ReferenceIdeal.ReadP.idx_main_v27
      (Cert.ReferenceIdeal.ReadP.idx_main_v28 (Cert.ReferenceIdeal.ReadP.idx_main_v29 (ix3 b t s))) k = ix3 b t (k : Fin 1024) :=
    funext fun a => match a with | ⟨0, _⟩ => rfl | ⟨1, _⟩ => rfl | ⟨2, _⟩ => rfl
  rw [hl, hr]
  exact hsc t k

theorem align_eq (b : Fin 64) (sc dn : FVec Ideal S128x1024 .f32)
    (hsc : ∀ (t : Fin 128) (s : Fin 1024), sc (ix2 t s) = Cert.ReferenceIdeal.ReadP.val_main_v26 (F := Ideal) A0 A1 A2 L A4 (ix3 b t s))
    (hdn : ∀ (t : Fin 128) (s : Fin 1024), dn (ix2 t s) = Cert.ReferenceIdeal.ReadP.val_main_v29 (F := Ideal) A0 A1 A2 L A4 (ix3 b t s))
    (t : Fin 128) (s : Fin 1024) :
    k0_pay1 sc dn (ix2 t s) = Cert.ReferenceIdeal.ReadP.val_main_v30 (F := Ideal) A0 A1 A2 L A4 (ix3 b t s) := by
  unfold k0_pay1
  rw [divf_apply, Cert.ReferenceIdeal.ReadP.val_main_v30_apply, hsc, hdn]
  rfl

end Cert.KernelIdeal.Attn

end
-- ==== Proof.Attend.lean ====
/-
  The hidden state: with attention weights that agree with the reference's on batch b, the block
  tanh ([al . mb , src] . W_out^T) is the reference's tanh of its output projection at (b, t, d).
-/
import proofs.«404635_j44478681317945_1_alg».proof.Proof.AttnDefs
import proofs.«404635_j44478681317945_1_alg».proof.Proof.KMatmul
import proofs.«404635_j44478681317945_1_alg».proof.Proof.RefRead
import Idealize.ShloMosaic.Lib.ValueLayout
import Idealize.ShloMosaic.Lib.Pipeline.Value

noncomputable section

namespace Cert.KernelIdeal.Attn

open Idealize.ShloMosaic Idealize.ShloMosaic.ValueIdx Idealize.SL.Sem Cert.KernelIdeal Cert.KernelIdeal.Gen

variable (A0 : Vec Ideal S64x128x1024 .f32) (A1 : Vec Ideal S64x1024x1024 .f32) (A2 : Vec Ideal S64x1024 .f32)
  (L : Vec Ideal S64 .i32) (A4 : Vec Ideal S1024x1024 .f32) (A5 : Vec Ideal S1024x2048 .f32)

/-! ## The blocks read at an entry -/

/-- The memory block of batch b as the context product's right factor: entry (s, e) is memory_bank (b, s, e). -/
theorem pay7_mb_apply (b : Fin 64) (s e : Fin 1024) :
    k0_pay7 (mbBlk A1 b) (ix2 s e) = A1 (ix3 b s e) := by
  unfold k0_pay7
  exact (shapeCast_1ab_ab_apply (mbBlk A1 b) _ s e).trans rfl

/-- The source block of batch b with its unit axis dropped: entry (t, k) is source (b, t, k). -/
theorem pay5_src_apply (b : Fin 64) (t : Fin 128) (k : Fin 1024) :
    k0_pay5 (srcBlk A0 b) (ix2 t k) = A0 (ix3 b t k) := by
  unfold k0_pay5
  exact (shapeCast_1ab_ab_apply (srcBlk A0 b) _ t k).trans rfl

/-- The transposed output weights: entry (k, d) is W_out (d, k). -/
theorem pay6_wout_apply (k : Fin 2048) (d : Fin 1024) :
    k0_pay6 (woutT A5) (ix2 k d) = A5 (ix2 d k) := by
  unfold k0_pay6
  rw [shapeCast_self]
  rfl

/-! ## The context product -/

/-- The context (t, e) = sum_s al (t, s) * mb (s, e) is the reference's context at (b, t, e). -/
theorem ctx_apply (b : Fin 64) (al : FVec Ideal S128x1024 .f32)
    (hal : ∀ (t : Fin 128) (s : Fin 1024), al (ix2 t s) = Cert.ReferenceIdeal.ReadP.val_main_v30 (F := Ideal) A0 A1 A2 L A4 (ix3 b t s))
    (t : Fin 128) (e : Fin 1024) :
    matmul dot_S128x1024_S1024x1024_S128x1024_1_0_0_1_n_n none (truncf .bf16 al bitsLt_bf16_f32) (k0_pay7 (mbBlk A1 b))
        (constant S128x1024 .f32 0x00000000#32) (ix2 t e)
      = Cert.ReferenceIdeal.ReadP.val_main_v31 (F := Ideal) A0 A1 A2 L A4 (ix3 b t e) := by
  rw [matmul_nn_apply, Cert.ReferenceIdeal.ReadP.val_main_v31_apply]
  refine Finset.sum_congr rfl fun s _ => ?_
  have hl : Cert.ReferenceIdeal.ReadP.lidx_main_v31 (ix3 b t e) s = ix3 b t s :=
    funext fun a => match a with | ⟨0, _⟩ => rfl | ⟨1, _⟩ => rfl | ⟨2, _⟩ => rfl
  have hr : Cert.ReferenceIdeal.ReadP.ridx_main_v31 (ix3 b t e) s = ix3 b s e :=
    funext fun a => match a with | ⟨0, _⟩ => rfl | ⟨1, _⟩ => rfl | ⟨2, _⟩ => rfl
  rw [hl, hr, truncf_apply, hal, pay7_mb_apply]

/-! ## The two concatenations read on either side of column 1024 -/

/-- The block's concatenation at a column below 1024 reads the first piece there. -/
theorem kcat_left (x y : FVec Ideal S128x1024 .f32) (h : Shape.Concatenates [S128x1024, S128x1024] S128x2048 1)
    (t : Fin 128) (k : Fin 2048) (hk : k.val < 1024) :
    concatenate S128x2048 1 [⟨S128x1024, x⟩, ⟨S128x1024, y⟩] h (ix2 t k) = x (ix2 t ⟨k.val, hk⟩) :=
  concatenate_pair_apply_left 1 x y h _ rfl _ (fun a => match a with | ⟨0, _⟩ => rfl | ⟨1, _⟩ => rfl)

/-- The block's concatenation at a column from 1024 on reads the second piece 1024 columns earlier. -/
theorem kcat_right (x y : FVec Ideal S128x1024 .f32) (h : Shape.Concatenates [S128x1024, S128x1024] S128x2048 1)
    (t : Fin 128) (k : Fin 2048) (hk : 1024 ≤ k.val) :
    concatenate S128x2048 1 [⟨S128x1024, x⟩, ⟨S128x1024, y⟩] h (ix2 t k) = y (ix2 t ⟨k.val - 1024, by omega⟩) :=
  concatenate_pair_apply_right 1 x y h _ rfl rfl _
    (fun a ha => match a with | ⟨0, _⟩ => rfl | ⟨1, _⟩ => absurd rfl ha)
    (by show k.val - 1024 + 1024 = k.val; omega)

/-- The reference's concatenation along its last axis at a column below 1024 reads the first piece there. -/
theorem rcat_left (x y : Vec Ideal S64x128x1024 .f32)
    (h : Shape.Concatenates [Cert.ReferenceIdeal.S64x128x1024, Cert.ReferenceIdeal.S64x128x1024] Cert.ReferenceIdeal.S64x128x2048 2)
    (b : Fin 64) (t : Fin 128) (k : Fin 2048) (hk : k.val < 1024) :
    concatenate Cert.ReferenceIdeal.S64x128x2048 2 [⟨Cert.ReferenceIdeal.S64x128x1024, x⟩, ⟨Cert.ReferenceIdeal.S64x128x1024, y⟩] h (ix3 b t k)
      = x (ix3 b t ⟨k.val, hk⟩) :=
  concatenate_pair_apply_left 2 x y h _ rfl _ (fun a => match a with | ⟨0, _⟩ => rfl | ⟨1, _⟩ => rfl | ⟨2, _⟩ => rfl)

/-- The reference's concatenation at a column from 1024 on reads the second piece 1024 columns earlier. -/
theorem rcat_right (x y : Vec Ideal S64x128x1024 .f32)
    (h : Shape.Concatenates [Cert.ReferenceIdeal.S64x128x1024, Cert.ReferenceIdeal.S64x128x1024] Cert.ReferenceIdeal.S64x128x2048 2)
    (b : Fin 64) (t : Fin 128) (k : Fin 2048) (hk : 1024 ≤ k.val) :
    concatenate Cert.ReferenceIdeal.S64x128x2048 2 [⟨Cert.ReferenceIdeal.S64x128x1024, x⟩, ⟨Cert.ReferenceIdeal.S64x128x1024, y⟩] h (ix3 b t k)
      = y (ix3 b t ⟨k.val - 1024, by omega⟩) :=
  concatenate_pair_apply_right 2 x y h _ rfl rfl _
    (fun a ha => match a with | ⟨0, _⟩ => rfl | ⟨1, _⟩ => rfl | ⟨2, _⟩ => absurd rfl ha)
    (by show k.val - 1024 + 1024 = k.val; omega)

/-! ## The concatenated row and the wide product -/

/-- The block's row [context , source] at column k is the reference's concatenation at (b, t, k). -/
theorem cat_apply (b : Fin 64) (al : FVec Ideal S128x1024 .f32)
    (hal : ∀ (t : Fin 128) (s : Fin 1024), al (ix2 t s) = Cert.ReferenceIdeal.ReadP.val_main_v30 (F := Ideal) A0 A1 A2 L A4 (ix3 b t s))
    (t : Fin 128) (k : Fin 2048) :
    concatenate S128x2048 1
        [⟨S128x1024, matmul dot_S128x1024_S1024x1024_S128x1024_1_0_0_1_n_n none (truncf .bf16 al bitsLt_bf16_f32) (k0_pay7 (mbBlk A1 b))
            (constant S128x1024 .f32 0x00000000#32)⟩,
         ⟨S128x1024, k0_pay5 (srcBlk A0 b)⟩] concatenates_S128x1024_S128x1024_S128x2048_d1 (ix2 t k)
      = Cert.ReferenceIdeal.ReadP.val_main_v32 (F := Ideal) A0 A1 A2 L A4 (ix3 b t k) := by
  unfold Cert.ReferenceIdeal.ReadP.val_main_v32
  by_cases hk : k.val < 1024
  · rw [kcat_left _ _ _ t k hk, rcat_left _ _ _ b t k hk]
    exact ctx_apply A0 A1 A2 L A4 b al hal t ⟨k.val, hk⟩
  · have hk' : 1024 ≤ k.val := Nat.le_of_not_lt hk
    rw [kcat_right _ _ _ t k hk', rcat_right _ _ _ b t k hk']
    exact pay5_src_apply A0 b t _

theorem attn_eq (b : Fin 64) (al : FVec Ideal S128x1024 .f32)
    (hal : ∀ (t : Fin 128) (s : Fin 1024), al (ix2 t s) = Cert.ReferenceIdeal.ReadP.val_main_v30 (F := Ideal) A0 A1 A2 L A4 (ix3 b t s))
    (t : Fin 128) (d : Fin 1024) :
    kAttn (srcBlk A0 b) (mbBlk A1 b) (woutT A5) al (ix3 (0 : Fin 1) t d) = Cert.ReferenceIdeal.ReadP.val_main_v34 (F := Ideal) A0 A1 A2 L A4 A5 (ix3 b t d) := by
  unfold kAttn
  refine (shapeCast_ab_1ab_apply _ _ (0 : Fin 1) t d).trans ?_
  rw [Cert.ReferenceIdeal.ReadP.val_main_v34_apply]
  refine congrArg Ideal.tanh ?_
  rw [matmul_wide_apply, Cert.ReferenceIdeal.ReadP.val_main_v33_apply]
  refine Finset.sum_congr rfl fun k _ => ?_
  have hl : Cert.ReferenceIdeal.ReadP.lidx_main_v33 (ix3 b t d) k = ix3 b t k :=
    funext fun a => match a with | ⟨0, _⟩ => rfl | ⟨1, _⟩ => rfl | ⟨2, _⟩ => rfl
  have hr : Cert.ReferenceIdeal.ReadP.ridx_main_v33 (ix3 b t d) k = ix2 d k :=
    funext fun a => match a with | ⟨0, _⟩ => rfl | ⟨1, _⟩ => rfl
  rw [hl, hr, truncf_apply, truncf_apply, cat_apply A0 A1 A2 L A4 b al hal t k, pay6_wout_apply]

end Cert.KernelIdeal.Attn

end
-- ==== Proof.Bridge.lean ====
/-
  The three result arrays are the reference's. A result at (t, b, .) is batch b's stored block at (t, .); the stored
  block is the last stage of the chain logits -> softmax -> rescaled -> renormalised -> hidden state, and each stage
  of batch b agrees with the reference's batched array at (b, t, .), so the chain does; the reference's last three
  operations are the same transposition to (t, b, .).
-/
import proofs.«404635_j44478681317945_1_alg».proof.Proof.AttnDefs
import proofs.«404635_j44478681317945_1_alg».proof.Proof.Logits
import proofs.«404635_j44478681317945_1_alg».proof.Proof.Softmax
import proofs.«404635_j44478681317945_1_alg».proof.Proof.Rescale
import proofs.«404635_j44478681317945_1_alg».proof.Proof.Attend
import proofs.«404635_j44478681317945_1_alg».proof.Proof.RefRead
import Idealize.ShloMosaic.Lib.Pipeline.Value

noncomputable section

namespace Cert.KernelIdeal.Attn

open Idealize.ShloMosaic Idealize.ShloMosaic.ValueIdx Idealize.SL.Sem Cert.KernelIdeal Cert.KernelIdeal.Gen

variable (A0 : Vec Ideal S64x128x1024 .f32) (A1 : Vec Ideal S64x1024x1024 .f32) (A2 : Vec Ideal S64x1024 .f32)
  (L : Vec Ideal S64 .i32) (A4 : Vec Ideal S1024x1024 .f32) (A5 : Vec Ideal S1024x2048 .f32)

/-- A 128 x 1024 block stored as 1 x 128 x 1024 reads (0, t, s) at (t, s). -/
theorem addUnit_apply (v : FVec Ideal S128x1024 .f32) (t : Fin 128) (s : Fin 1024) :
    shapeCast S1x128x1024 v shapeCasts_S128x1024_S1x128x1024 (ix3 (0 : Fin 1) t s) = v (ix2 t s) := by
  refine (shapeCast_addUnit_apply ![128, 1024] v shapeCasts_S128x1024_S1x128x1024 (ix3 (0 : Fin 1) t s)).trans ?_
  refine congrArg v (funext fun a => ?_)
  match a with
  | ⟨0, _⟩ => rfl
  | ⟨1, _⟩ => rfl

theorem soft_block (b : Fin 64) (t : Fin 128) (s : Fin 1024) :
    k0_pay9 (srcBlk A0 b) (mbBlk A1 b) (winT A4) (L (ix1 b)) (ix2 t s) = Cert.ReferenceIdeal.ReadP.val_main_v20 (F := Ideal) A0 A1 L A4 (ix3 b t s) := by
  rw [pay9_eq]
  exact soft_eq A0 A1 L A4 b _ (logits_eq A0 A1 A4 b) t s

theorem scaled_block (b : Fin 64) (t : Fin 128) (s : Fin 1024) :
    k0_pay10 (srcBlk A0 b) (mbBlk A1 b) (prBlk A2 b) (winT A4) (L (ix1 b)) (ix2 t s) = Cert.ReferenceIdeal.ReadP.val_main_v26 (F := Ideal) A0 A1 A2 L A4 (ix3 b t s) := by
  rw [pay10_eq]
  exact scaled_eq A0 A1 A2 L A4 b _ (soft_block A0 A1 L A4 b) t s

theorem den_block (b : Fin 64) (t : Fin 128) (s : Fin 1024) :
    k0_pay11 (srcBlk A0 b) (mbBlk A1 b) (prBlk A2 b) (winT A4) (L (ix1 b)) (ix2 t s) = Cert.ReferenceIdeal.ReadP.val_main_v29 (F := Ideal) A0 A1 A2 L A4 (ix3 b t s) := by
  rw [pay11_eq]
  exact den_eq A0 A1 A2 L A4 b _ (scaled_block A0 A1 A2 L A4 b) t s

theorem align_block (b : Fin 64) (t : Fin 128) (s : Fin 1024) :
    k0_pay1 (k0_pay10 (srcBlk A0 b) (mbBlk A1 b) (prBlk A2 b) (winT A4) (L (ix1 b))) (k0_pay11 (srcBlk A0 b) (mbBlk A1 b) (prBlk A2 b) (winT A4) (L (ix1 b))) (ix2 t s)
      = Cert.ReferenceIdeal.ReadP.val_main_v30 (F := Ideal) A0 A1 A2 L A4 (ix3 b t s) :=
  align_eq A0 A1 A2 L A4 b _ _ (scaled_block A0 A1 A2 L A4 b) (den_block A0 A1 A2 L A4 b) t s

theorem outSoft_eq (b : Fin 64) (t : Fin 128) (s : Fin 1024) :
    outSoft A0 A1 L A4 b (ix3 (0 : Fin 1) t s) = Cert.ReferenceIdeal.ReadP.val_main_v20 (F := Ideal) A0 A1 L A4 (ix3 b t s) := by
  unfold outSoft k0_pay4
  exact (addUnit_apply _ t s).trans (soft_block A0 A1 L A4 b t s)

theorem outAlign_eq (b : Fin 64) (t : Fin 128) (s : Fin 1024) :
    outAlign A0 A1 A2 L A4 b (ix3 (0 : Fin 1) t s) = Cert.ReferenceIdeal.ReadP.val_main_v30 (F := Ideal) A0 A1 A2 L A4 (ix3 b t s) := by
  unfold outAlign k0_pay3
  exact (addUnit_apply _ t s).trans (align_block A0 A1 A2 L A4 b t s)

theorem outAttn_eq (b : Fin 64) (t : Fin 128) (d : Fin 1024) :
    outAttn A0 A1 A2 L A4 A5 b (ix3 (0 : Fin 1) t d) = Cert.ReferenceIdeal.ReadP.val_main_v34 (F := Ideal) A0 A1 A2 L A4 A5 (ix3 b t d) := by
  unfold outAttn
  rw [pay2_eq]
  exact attn_eq A0 A1 A2 L A4 A5 b _ (align_block A0 A1 A2 L A4 b) t d

/-- The reference's transposition reads (t, b, x) at (b, t, x). -/
theorem tr_idx (t : Fin 128) (b : Fin 64) (x : Fin 1024) :
    (fun a => match a with
      | ⟨0, _⟩ => ⟨((ix3 t b x : S128x64x1024.Idx) 1).val, ((ix3 t b x : S128x64x1024.Idx) 1).isLt⟩
      | ⟨1, _⟩ => ⟨((ix3 t b x : S128x64x1024.Idx) 0).val, ((ix3 t b x : S128x64x1024.Idx) 0).isLt⟩
      | ⟨2, _⟩ => ⟨((ix3 t b x : S128x64x1024.Idx) 2).val, ((ix3 t b x : S128x64x1024.Idx) 2).isLt⟩ : S64x128x1024.Idx) = ix3 b t x :=
  funext fun a => match a with
    | ⟨0, _⟩ => rfl
    | ⟨1, _⟩ => rfl
    | ⟨2, _⟩ => rfl

theorem resSoft_eq : resSoft A0 A1 L A4 = Cert.ReferenceIdeal.ReadP.val_main_v37 (F := Ideal) A0 A1 L A4 := by
  funext i
  obtain ⟨t, b, x, rfl⟩ : ∃ (t : Fin 128) (b : Fin 64) (x : Fin 1024), i = ix3 t b x := ⟨i 0, i 1, i 2, eq_ix3 i⟩
  rw [Cert.ReferenceIdeal.ReadP.val_main_v37_apply]
  show outSoft A0 A1 L A4 b (ix3 (0 : Fin 1) t x) = _
  rw [outSoft_eq]
  exact congrArg _ (tr_idx t b x).symm

theorem resAlign_eq : resAlign A0 A1 A2 L A4 = Cert.ReferenceIdeal.ReadP.val_main_v36 (F := Ideal) A0 A1 A2 L A4 := by
  funext i
  obtain ⟨t, b, x, rfl⟩ : ∃ (t : Fin 128) (b : Fin 64) (x : Fin 1024), i = ix3 t b x := ⟨i 0, i 1, i 2, eq_ix3 i⟩
  rw [Cert.ReferenceIdeal.ReadP.val_main_v36_apply]
  show outAlign A0 A1 A2 L A4 b (ix3 (0 : Fin 1) t x) = _
  rw [outAlign_eq]
  exact congrArg _ (tr_idx t b x).symm

theorem resAttn_eq : resAttn A0 A1 A2 L A4 A5 = Cert.ReferenceIdeal.ReadP.val_main_v35 (F := Ideal) A0 A1 A2 L A4 A5 := by
  funext i
  obtain ⟨t, b, x, rfl⟩ : ∃ (t : Fin 128) (b : Fin 64) (x : Fin 1024), i = ix3 t b x := ⟨i 0, i 1, i 2, eq_ix3 i⟩
  rw [Cert.ReferenceIdeal.ReadP.val_main_v35_apply, Cert.ReferenceIdeal.ReadP.val_main_v34_apply]
  show outAttn A0 A1 A2 L A4 A5 b (ix3 (0 : Fin 1) t x) = _
  rw [outAttn_eq, Cert.ReferenceIdeal.ReadP.val_main_v34_apply]
  exact congrArg _ (congrArg _ (tr_idx t b x).symm)

end Cert.KernelIdeal.Attn

end
-- ==== Proof.KDefs.lean ====
/-
  Two names the kernel's frame is read with: the word a grid point loads from the prefetched lengths, and a grid
  point (the grid is the 64 batches, in order) as a batch index.
-/
import proofs.«404635_j44478681317945_1_alg».proof.Proof.Gen.KernelIdeal.Frame
import proofs.«404635_j44478681317945_1_alg».proof.Proof.AttnDefs

noncomputable section

namespace Cert.KernelIdeal.Attn

open Idealize.ShloMosaic Idealize.ShloMosaic.TcCoe Idealize.ShloMosaic.ValueIdx Idealize.SL.Sem Cert.KernelIdeal Cert.KernelIdeal.Gen

variable {F : FTy → Type} [FloatOps F]

/-- The scalar the body loads at grid coordinates i: entry (i 0) of the lengths table, whose contents are xt0. -/
def lenWord (c : Dev nD) (i : grid0.Coords) (xt0 : TbBuf0 (F := F) c tbM0_0) : Elt F .i32 :=
  View.readAt (Elt F) tbM0_0.view (Rect.unit (s := S64) (k0_off1 i) S1.size (k0_off1_inb i)).toLoadRect xt0 (Shape.Idx.first (show 0 < S1.numel from by decide))

variable (m : (ℓ : Loc nD τ sig) → Buf (Elt F) ℓ)

/-- Grid point t is batch t. -/
def batchOf (hO : Ok m) (t : Fin (cfgM m hO).N) : Fin 64 :=
  ⟨t.val, lt_of_lt_of_eq t.isLt (N_0 : (cfgM m hO).N = 64)⟩

end Cert.KernelIdeal.Attn

end
-- ==== Proof.KPieces.lean ====
/-
  What the body leaves in its three output buffers at a grid point, as values: each output is one store of the whole
  block, so the buffer ends holding that store's payload, a function of the five input blocks and of the word loaded
  from the lengths.
-/
import proofs.«404635_j44478681317945_1_alg».proof.Proof.KDefs
import Idealize.ShloMosaic.Lib.Pipeline.Value
import Idealize.ShloMosaic.Lib.Tactic

noncomputable section

namespace Cert.KernelIdeal.Attn

open Idealize.ShloMosaic Idealize.ShloMosaic.TcCoe Idealize.ShloMosaic.Tactic Idealize.SL.Sem Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Output 7 (the plain softmax). -/
theorem out7_eq (c : Dev nD) (i : grid0.Coords) (a2 : Memref sig .tc .vmem S1x128x1024 .f32) (h2 : a2.IsWhole) (a3 : Memref sig .tc .vmem S1x1024x1024 .f32) (h3 : a3.IsWhole) (a4 : Memref sig .tc .vmem S1x1x1024 .f32) (h4 : a4.IsWhole) (a5 : Memref sig .tc .vmem S1024x1024 .f32) (h5 : a5.IsWhole) (a6 : Memref sig .tc .vmem S2048x1024 .f32) (h6 : a6.IsWhole) (a7 : Memref sig .tc .vmem S1x128x1024 .f32) (h7 : a7.IsWhole) (a8 : Memref sig .tc .vmem S1x128x1024 .f32) (h8 : a8.IsWhole) (a9 : Memref sig .tc .vmem S1x128x1024 .f32) (h9 : a9.IsWhole) (x0 : Vec F S1x128x1024 .f32) (x1 : Vec F S1x1024x1024 .f32) (x2 : Vec F S1x1x1024 .f32) (x3 : Vec F S1024x1024 .f32) (x4 : Vec F S2048x1024 .f32) (xt0 : TbBuf0 (F := F) c tbM0_0) :
    out0_A_7 c i a2 h2 a3 h3 a4 h4 a5 h5 a6 h6 a7 h7 a8 h8 a9 h9 x0 x1 x2 x3 x4 xt0 = k0_pay4 (k0_pay9 x0 x1 x3 (lenWord c i xt0)) := by
  unfold out0_A_7
  rw [View.read_writes_eq_canon _ _ _ (cover0_A_7 c i a2 h2 a3 h3 a4 h4 a5 h5 a6 h6 a7 h7 a8 h8 a9 h9 x0 x1 x2 x3 x4 xt0)]
  unfold kernelRun0_A
  dsimp only
  sl_unfold_words
  rw [View.canon_unit_zero hz3]
  simp only [View.readAt_eq_ld, h2.read_unread, h3.read_unread, h4.read_unread, h5.read_unread, h6.read_unread, View.ld_unit_zero (S := S1x128x1024) hz3, View.ld_unit_zero (S := S1x1024x1024) hz3, View.ld_unit_zero (S := S1x1x1024) hz3, View.ld_unit_zero (S := S1024x1024) hz2, View.ld_unit_zero (S := S2048x1024) hz2]
  rfl

/-- Output 6 (the renormalised weights). -/
theorem out6_eq (c : Dev nD) (i : grid0.Coords) (a2 : Memref sig .tc .vmem S1x128x1024 .f32) (h2 : a2.IsWhole) (a3 : Memref sig .tc .vmem S1x1024x1024 .f32) (h3 : a3.IsWhole) (a4 : Memref sig .tc .vmem S1x1x1024 .f32) (h4 : a4.IsWhole) (a5 : Memref sig .tc .vmem S1024x1024 .f32) (h5 : a5.IsWhole) (a6 : Memref sig .tc .vmem S2048x1024 .f32) (h6 : a6.IsWhole) (a7 : Memref sig .tc .vmem S1x128x1024 .f32) (h7 : a7.IsWhole) (a8 : Memref sig .tc .vmem S1x128x1024 .f32) (h8 : a8.IsWhole) (a9 : Memref sig .tc .vmem S1x128x1024 .f32) (h9 : a9.IsWhole) (x0 : Vec F S1x128x1024 .f32) (x1 : Vec F S1x1024x1024 .f32) (x2 : Vec F S1x1x1024 .f32) (x3 : Vec F S1024x1024 .f32) (x4 : Vec F S2048x1024 .f32) (xt0 : TbBuf0 (F := F) c tbM0_0) :
    out0_A_6 c i a2 h2 a3 h3 a4 h4 a5 h5 a6 h6 a7 h7 a8 h8 a9 h9 x0 x1 x2 x3 x4 xt0 = k0_pay3 (k0_pay10 x0 x1 x2 x3 (lenWord c i xt0)) (k0_pay11 x0 x1 x2 x3 (lenWord c i xt0)) := by
  unfold out0_A_6
  rw [View.read_writes_eq_canon _ _ _ (cover0_A_6 c i a2 h2 a3 h3 a4 h4 a5 h5 a6 h6 a7 h7 a8 h8 a9 h9 x0 x1 x2 x3 x4 xt0)]
  unfold kernelRun0_A
  dsimp only
  sl_unfold_words
  rw [View.canon_unit_zero hz3]
  simp only [View.readAt_eq_ld, h2.read_unread, h3.read_unread, h4.read_unread, h5.read_unread, h6.read_unread, View.ld_unit_zero (S := S1x128x1024) hz3, View.ld_unit_zero (S := S1x1024x1024) hz3, View.ld_unit_zero (S := S1x1x1024) hz3, View.ld_unit_zero (S := S1024x1024) hz2, View.ld_unit_zero (S := S2048x1024) hz2]
  rfl

/-- Output 5 (the hidden state). -/
theorem out5_eq (c : Dev nD) (i : grid0.Coords) (a2 : Memref sig .tc .vmem S1x128x1024 .f32) (h2 : a2.IsWhole) (a3 : Memref sig .tc .vmem S1x1024x1024 .f32) (h3 : a3.IsWhole) (a4 : Memref sig .tc .vmem S1x1x1024 .f32) (h4 : a4.IsWhole) (a5 : Memref sig .tc .vmem S1024x1024 .f32) (h5 : a5.IsWhole) (a6 : Memref sig .tc .vmem S2048x1024 .f32) (h6 : a6.IsWhole) (a7 : Memref sig .tc .vmem S1x128x1024 .f32) (h7 : a7.IsWhole) (a8 : Memref sig .tc .vmem S1x128x1024 .f32) (h8 : a8.IsWhole) (a9 : Memref sig .tc .vmem S1x128x1024 .f32) (h9 : a9.IsWhole) (x0 : Vec F S1x128x1024 .f32) (x1 : Vec F S1x1024x1024 .f32) (x2 : Vec F S1x1x1024 .f32) (x3 : Vec F S1024x1024 .f32) (x4 : Vec F S2048x1024 .f32) (xt0 : TbBuf0 (F := F) c tbM0_0) :
    out0_A_5 c i a2 h2 a3 h3 a4 h4 a5 h5 a6 h6 a7 h7 a8 h8 a9 h9 x0 x1 x2 x3 x4 xt0 = k0_pay2 (k0_pay5 x0) (k0_pay6 x4) (k0_pay7 x1) (k0_pay10 x0 x1 x2 x3 (lenWord c i xt0)) (k0_pay11 x0 x1 x2 x3 (lenWord c i xt0)) := by
  unfold out0_A_5
  rw [View.read_writes_eq_canon _ _ _ (cover0_A_5 c i a2 h2 a3 h3 a4 h4 a5 h5 a6 h6 a7 h7 a8 h8 a9 h9 x0 x1 x2 x3 x4 xt0)]
  unfold kernelRun0_A
  dsimp only
  sl_unfold_words
  rw [View.canon_unit_zero hz3]
  simp only [View.readAt_eq_ld, h2.read_unread, h3.read_unread, h4.read_unread, h5.read_unread, h6.read_unread, View.ld_unit_zero (S := S1x128x1024) hz3, View.ld_unit_zero (S := S1x1024x1024) hz3, View.ld_unit_zero (S := S1x1x1024) hz3, View.ld_unit_zero (S := S1024x1024) hz2, View.ld_unit_zero (S := S2048x1024) hz2]
  rfl

end Cert.KernelIdeal.Attn

end
-- ==== Proof.KBlocks.lean ====
/-
  What a grid point's windows read. Grid point t (batch t) finds in its five input buffers: rows t of source, of
  memory_bank and of probs (the last through the reshape the program does first), and the two weight matrices
  transposed (the program's first two operations), whole; and the scalar it loads from the lengths is lengths[t].
-/
import proofs.«404635_j44478681317945_1_alg».proof.Proof.KDefs
import Idealize.ShloMosaic.Lib.Pipeline.Value
import Idealize.ShloMosaic.Lib.StableHlo.Run
import Idealize.ShloMosaic.Lib.Tactic

noncomputable section

namespace Cert.KernelIdeal.Attn

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-! ## The index maps over the grid: window 0, 1, 2 sit at block (t, 0, 0), windows 3, 4 at block (0, 0) -/

private theorem idx0 : ∀ t : Fin grid0.N, cc0_transform_0 (grid0.coords t) 0 = t.val ∧ cc0_transform_0 (grid0.coords t) 1 = 0 ∧ cc0_transform_0 (grid0.coords t) 2 = 0 := by
  decide +kernel
private theorem idx1 : ∀ t : Fin grid0.N, cc0_transform_1 (grid0.coords t) 0 = t.val ∧ cc0_transform_1 (grid0.coords t) 1 = 0 ∧ cc0_transform_1 (grid0.coords t) 2 = 0 := by
  decide +kernel
private theorem idx2 : ∀ t : Fin grid0.N, cc0_transform_2 (grid0.coords t) 0 = t.val ∧ cc0_transform_2 (grid0.coords t) 1 = 0 ∧ cc0_transform_2 (grid0.coords t) 2 = 0 := by
  decide +kernel
private theorem idx3 : ∀ t : Fin grid0.N, cc0_transform_3 (grid0.coords t) 0 = 0 ∧ cc0_transform_3 (grid0.coords t) 1 = 0 := by
  decide +kernel
private theorem idx4 : ∀ t : Fin grid0.N, cc0_transform_4 (grid0.coords t) 0 = 0 ∧ cc0_transform_4 (grid0.coords t) 1 = 0 := by
  decide +kernel

/-! ## The arrays the program's first three operations write, as the kernel finds them -/

/-- The first operation's result is W_in transposed. -/
private theorem V_v0 (c : Dev nD) : (V m c main_v0 : S1024x1024.Idx → EReal) = transpose S1024x1024 [1, 0] (m ((c.tc : Thread nD τ).loc main_arg4)) transposes_S1024x1024_S1024x1024_1_0 := by
  dsimp only [Gen.V, Gen.V0]
  simp only [Gen.hostOps0, List.flatten_cons, List.flatten_nil, List.append_nil, List.cons_append, List.nil_append]
  after_results

/-- The second operation's result is W_out transposed. -/
private theorem V_v1 (c : Dev nD) : (V m c main_v1 : S2048x1024.Idx → EReal) = transpose S2048x1024 [1, 0] (m ((c.tc : Thread nD τ).loc main_arg5)) transposes_S1024x2048_S2048x1024_1_0 := by
  dsimp only [Gen.V, Gen.V0]
  simp only [Gen.hostOps0, List.flatten_cons, List.flatten_nil, List.append_nil, List.cons_append, List.nil_append]
  after_results

/-- The third operation's result is probs with a unit axis put in the middle. -/
private theorem V_v2 (c : Dev nD) : (V m c main_v2 : S64x1x1024.Idx → EReal) = shapeCast S64x1x1024 (m ((c.tc : Thread nD τ).loc main_arg2)) shapeCasts_S64x1024_S64x1x1024 := by
  dsimp only [Gen.V, Gen.V0]
  simp only [Gen.hostOps0, List.flatten_cons, List.flatten_nil, List.append_nil, List.cons_append, List.nil_append]
  after_results
  rfl

/-! ## Where a block's index lands in its array: index times size plus the coordinate inside the block -/

private theorem emb0 (hO : Ok m) (t : Fin (cfgM m hO).N) (j : S1x128x1024.Idx) :
    ((((cfgM m hO).win 0).blk t).view.emb j : S64x128x1024.Idx) = ix3 (batchOf m hO t) ⟨(j 1).val, (j 1).isLt⟩ ⟨(j 2).val, (j 2).isLt⟩ := by
  have hi := idx0 t
  have h0 : ((cfgM m hO).win 0).index t (0 : Fin 3) = t.val := hi.1
  have h1 : ((cfgM m hO).win 0).index t (1 : Fin 3) = 0 := hi.2.1
  have h2 : ((cfgM m hO).win 0).index t (2 : Fin 3) = 0 := hi.2.2
  have hj : (j (0 : Fin 3)).val < 1 := (j 0).isLt
  funext a
  apply Fin.ext
  match a with
  | ⟨0, _⟩ =>
    show ((cfgM m hO).win 0).index t (0 : Fin 3) * 1 + 1 * (j (0 : Fin 3)).val = t.val
    rw [h0]; omega
  | ⟨1, _⟩ =>
    show ((cfgM m hO).win 0).index t (1 : Fin 3) * 128 + 1 * (j (1 : Fin 3)).val = (j (1 : Fin 3)).val
    rw [h1]; omega
  | ⟨2, _⟩ =>
    show ((cfgM m hO).win 0).index t (2 : Fin 3) * 1024 + 1 * (j (2 : Fin 3)).val = (j (2 : Fin 3)).val
    rw [h2]; omega

private theorem emb1 (hO : Ok m) (t : Fin (cfgM m hO).N) (j : S1x1024x1024.Idx) :
    ((((cfgM m hO).win 1).blk t).view.emb j : S64x1024x1024.Idx) = ix3 (batchOf m hO t) ⟨(j 1).val, (j 1).isLt⟩ ⟨(j 2).val, (j 2).isLt⟩ := by
  have hi := idx1 t
  have h0 : ((cfgM m hO).win 1).index t (0 : Fin 3) = t.val := hi.1
  have h1 : ((cfgM m hO).win 1).index t (1 : Fin 3) = 0 := hi.2.1
  have h2 : ((cfgM m hO).win 1).index t (2 : Fin 3) = 0 := hi.2.2
  have hj : (j (0 : Fin 3)).val < 1 := (j 0).isLt
  funext a
  apply Fin.ext
  match a with
  | ⟨0, _⟩ =>
    show ((cfgM m hO).win 1).index t (0 : Fin 3) * 1 + 1 * (j (0 : Fin 3)).val = t.val
    rw [h0]; omega
  | ⟨1, _⟩ =>
    show ((cfgM m hO).win 1).index t (1 : Fin 3) * 1024 + 1 * (j (1 : Fin 3)).val = (j (1 : Fin 3)).val
    rw [h1]; omega
  | ⟨2, _⟩ =>
    show ((cfgM m hO).win 1).index t (2 : Fin 3) * 1024 + 1 * (j (2 : Fin 3)).val = (j (2 : Fin 3)).val
    rw [h2]; omega

private theorem emb2 (hO : Ok m) (t : Fin (cfgM m hO).N) (j : S1x1x1024.Idx) :
    ((((cfgM m hO).win 2).blk t).view.emb j : S64x1x1024.Idx) = ix3 (batchOf m hO t) (0 : Fin 1) ⟨(j 2).val, (j 2).isLt⟩ := by
  have hi := idx2 t
  have h0 : ((cfgM m hO).win 2).index t (0 : Fin 3) = t.val := hi.1
  have h1 : ((cfgM m hO).win 2).index t (1 : Fin 3) = 0 := hi.2.1
  have h2 : ((cfgM m hO).win 2).index t (2 : Fin 3) = 0 := hi.2.2
  have hj : (j (0 : Fin 3)).val < 1 := (j 0).isLt
  have hj1 : (j (1 : Fin 3)).val < 1 := (j 1).isLt
  funext a
  apply Fin.ext
  match a with
  | ⟨0, _⟩ =>
    show ((cfgM m hO).win 2).index t (0 : Fin 3) * 1 + 1 * (j (0 : Fin 3)).val = t.val
    rw [h0]; omega
  | ⟨1, _⟩ =>
    show ((cfgM m hO).win 2).index t (1 : Fin 3) * 1 + 1 * (j (1 : Fin 3)).val = 0
    rw [h1]; omega
  | ⟨2, _⟩ =>
    show ((cfgM m hO).win 2).index t (2 : Fin 3) * 1024 + 1 * (j (2 : Fin 3)).val = (j (2 : Fin 3)).val
    rw [h2]; omega

private theorem emb3 (hO : Ok m) (t : Fin (cfgM m hO).N) (j : S1024x1024.Idx) :
    ((((cfgM m hO).win 3).blk t).view.emb j : S1024x1024.Idx) = j := by
  have hi := idx3 t
  have h0 : ((cfgM m hO).win 3).index t (0 : Fin 2) = 0 := hi.1
  have h1 : ((cfgM m hO).win 3).index t (1 : Fin 2) = 0 := hi.2
  funext a
  apply Fin.ext
  match a with
  | ⟨0, _⟩ =>
    show ((cfgM m hO).win 3).index t (0 : Fin 2) * 1024 + 1 * (j (0 : Fin 2)).val = (j (0 : Fin 2)).val
    rw [h0]; omega
  | ⟨1, _⟩ =>
    show ((cfgM m hO).win 3).index t (1 : Fin 2) * 1024 + 1 * (j (1 : Fin 2)).val = (j (1 : Fin 2)).val
    rw [h1]; omega

private theorem emb4 (hO : Ok m) (t : Fin (cfgM m hO).N) (j : S2048x1024.Idx) :
    ((((cfgM m hO).win 4).blk t).view.emb j : S2048x1024.Idx) = j := by
  have hi := idx4 t
  have h0 : ((cfgM m hO).win 4).index t (0 : Fin 2) = 0 := hi.1
  have h1 : ((cfgM m hO).win 4).index t (1 : Fin 2) = 0 := hi.2
  funext a
  apply Fin.ext
  match a with
  | ⟨0, _⟩ =>
    show ((cfgM m hO).win 4).index t (0 : Fin 2) * 2048 + 1 * (j (0 : Fin 2)).val = (j (0 : Fin 2)).val
    rw [h0]; omega
  | ⟨1, _⟩ =>
    show ((cfgM m hO).win 4).index t (1 : Fin 2) * 1024 + 1 * (j (1 : Fin 2)).val = (j (1 : Fin 2)).val
    rw [h1]; omega

/-! ## The reshape and the two transposes read at an index -/

/-- probs with a unit middle axis, at (b, 0, s), is probs at (b, s): both sit at b * 1024 + s in row-major order. -/
private theorem cast2 (A2 : Vec Ideal S64x1024 .f32) (b : Fin 64) (s : Fin 1024) :
    shapeCast S64x1x1024 A2 shapeCasts_S64x1024_S64x1x1024 (ix3 b (0 : Fin 1) s) = A2 (ix2 b s) := by
  refine shapeCast_apply A2 _ _ (ix2 b s) ?_
  rw [Shape.rowMajor_val_two, Shape.rowMajor_val_three]
  show b.val * 1024 + s.val = (b.val * 1 + 0) * 1024 + s.val
  omega

/-- W_in transposed at (d, e) is W_in at (e, d). -/
private theorem tr3 (A4 : Vec Ideal S1024x1024 .f32) (j : S1024x1024.Idx) :
    transpose S1024x1024 [1, 0] A4 transposes_S1024x1024_S1024x1024_1_0 j = winT A4 j :=
  transpose_apply [1, 0] A4 transposes_S1024x1024_S1024x1024_1_0 j (ix2 ⟨(j 1).val, (j 1).isLt⟩ ⟨(j 0).val, (j 0).isLt⟩)
    (fun b => match b with | ⟨0, _⟩ => rfl | ⟨1, _⟩ => rfl)

/-- W_out transposed at (f, d) is W_out at (d, f). -/
private theorem tr4 (A5 : Vec Ideal S1024x2048 .f32) (j : S2048x1024.Idx) :
    transpose S2048x1024 [1, 0] A5 transposes_S1024x2048_S2048x1024_1_0 j = woutT A5 j :=
  transpose_apply [1, 0] A5 transposes_S1024x2048_S2048x1024_1_0 j (ix2 ⟨(j 1).val, (j 1).isLt⟩ ⟨(j 0).val, (j 0).isLt⟩)
    (fun b => match b with | ⟨0, _⟩ => rfl | ⟨1, _⟩ => rfl)

/-! ## The scalar load -/

/-- The load's offset at grid point t is t (a 32-bit word below 64 is its own number). -/
private theorem off1 : ∀ t : Fin grid0.N, k0_off1 (grid0.coords t) 0 = t.val := by
  decide +kernel

/-- The word loaded at grid point t from a table holding xt is xt at t: the whole table read at offset t. -/
private theorem lenWord_at (c : Dev nD) (t : Fin grid0.N) (b : Fin 64) (hb : t.val = b.val) (xt : Vec Ideal S64 .i32) :
    lenWord c (grid0.coords t) xt = xt (ix1 b) := by
  have ho := off1 t
  unfold lenWord
  show xt _ = xt _
  congr 1
  funext a
  apply Fin.ext
  match a with
  | ⟨0, _⟩ =>
    show k0_off1 (grid0.coords t) 0 + 1 * 0 = b.val
    rw [ho]; omega

/-! ## What each window holds at grid point t, and the word loaded there -/

theorem iblk0_eq (hO : Ok m) (c : Dev nD) (t : Fin (cfgM m hO).N) :
    (iblk m hO c 0 t : Vec Ideal S1x128x1024 .f32) = srcBlk (m ((c.tc : Thread nD τ).loc main_arg0)) (batchOf m hO t) := by
  funext j
  unfold iblk
  rw [View.read_apply]
  show V m c main_arg0 _ = _
  rw [V_main_arg0]
  exact congrArg _ (emb0 m hO t j)

theorem iblk1_eq (hO : Ok m) (c : Dev nD) (t : Fin (cfgM m hO).N) :
    (iblk m hO c 1 t : Vec Ideal S1x1024x1024 .f32) = mbBlk (m ((c.tc : Thread nD τ).loc main_arg1)) (batchOf m hO t) := by
  funext j
  unfold iblk
  rw [View.read_apply]
  show V m c main_arg1 _ = _
  rw [V_main_arg1]
  exact congrArg _ (emb1 m hO t j)

theorem iblk2_eq (hO : Ok m) (c : Dev nD) (t : Fin (cfgM m hO).N) :
    (iblk m hO c 2 t : Vec Ideal S1x1x1024 .f32) = prBlk (m ((c.tc : Thread nD τ).loc main_arg2)) (batchOf m hO t) := by
  funext j
  unfold iblk
  rw [View.read_apply]
  show V m c main_v2 _ = _
  refine (congrFun (V_v2 m c) _).trans ?_
  refine (congrArg _ (emb2 m hO t j)).trans ?_
  exact cast2 _ _ _

theorem iblk3_eq (hO : Ok m) (c : Dev nD) (t : Fin (cfgM m hO).N) :
    (iblk m hO c 3 t : Vec Ideal S1024x1024 .f32) = winT (m ((c.tc : Thread nD τ).loc main_arg4)) := by
  funext j
  unfold iblk
  rw [View.read_apply]
  show V m c main_v0 _ = _
  refine (congrFun (V_v0 m c) _).trans ?_
  refine (congrArg _ (emb3 m hO t j)).trans ?_
  exact tr3 _ _

theorem iblk4_eq (hO : Ok m) (c : Dev nD) (t : Fin (cfgM m hO).N) :
    (iblk m hO c 4 t : Vec Ideal S2048x1024 .f32) = woutT (m ((c.tc : Thread nD τ).loc main_arg5)) := by
  funext j
  unfold iblk
  rw [View.read_apply]
  show V m c main_v1 _ = _
  refine (congrFun (V_v1 m c) _).trans ?_
  refine (congrArg _ (emb4 m hO t j)).trans ?_
  exact tr4 _ _

theorem word_eq (hO : Ok m) (c : Dev nD) (t : Fin (cfgM m hO).N) :
    lenWord c (grid0.coords t) (tbl m 0) = (m ((c.tc : Thread nD τ).loc main_arg3)) (ix1 (batchOf m hO t)) := by
  obtain rfl : c = 0 := Subsingleton.elim _ _
  refine (lenWord_at 0 t (batchOf m hO t) rfl (tbl m 0)).trans ?_
  show V m 0 main_arg3 (ix1 (batchOf m hO t)) = _
  rw [V_main_arg3]

end Cert.KernelIdeal.Attn

end
-- ==== Proof.KRun.lean ====
/-
  The kernel's program, run. After the body at grid point t the three output buffers hold batch t's blocks; each
  output window writes its buffer back at every point, into rows t of its array, and the 64 points cover the array:
  so each array ends as the blocks laid along the batch axis. The program's last three operations transpose them to
  (t, b, .). Every weakly fair execution therefore ends with the three results at those arrays and the six arguments
  unchanged.
-/
import proofs.«404635_j44478681317945_1_alg».proof.Proof.Gen.KernelIdeal.Frame
import proofs.«404635_j44478681317945_1_alg».proof.Proof.AttnDefs
import proofs.«404635_j44478681317945_1_alg».proof.Proof.KDefs
import proofs.«404635_j44478681317945_1_alg».proof.Proof.KPieces
import proofs.«404635_j44478681317945_1_alg».proof.Proof.KBlocks
import Idealize.ShloMosaic.Lib.Pipeline.Value
import Idealize.ShloMosaic.Lib.StableHlo.Run
import Idealize.ShloMosaic.Lib.Tactic

noncomputable section

namespace Cert.KernelIdeal.Attn

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-! ## The output buffers after the body at a point -/

/-- With the input buffers at batch b's blocks and the loaded word at lengths[b], output 5 ends at batch b's hidden state, -/
theorem out5_val (c : Dev nD) (i : grid0.Coords) (a2 : Memref sig .tc .vmem S1x128x1024 .f32) (h2 : a2.IsWhole) (a3 : Memref sig .tc .vmem S1x1024x1024 .f32) (h3 : a3.IsWhole) (a4 : Memref sig .tc .vmem S1x1x1024 .f32) (h4 : a4.IsWhole) (a5 : Memref sig .tc .vmem S1024x1024 .f32) (h5 : a5.IsWhole) (a6 : Memref sig .tc .vmem S2048x1024 .f32) (h6 : a6.IsWhole) (a7 : Memref sig .tc .vmem S1x128x1024 .f32) (h7 : a7.IsWhole) (a8 : Memref sig .tc .vmem S1x128x1024 .f32) (h8 : a8.IsWhole) (a9 : Memref sig .tc .vmem S1x128x1024 .f32) (h9 : a9.IsWhole) (x0 : Vec Ideal S1x128x1024 .f32) (x1 : Vec Ideal S1x1024x1024 .f32) (x2 : Vec Ideal S1x1x1024 .f32) (x3 : Vec Ideal S1024x1024 .f32) (x4 : Vec Ideal S2048x1024 .f32) (xt0 : TbBuf0 (F := Ideal) c tbM0_0) (A0 : Vec Ideal S64x128x1024 .f32) (A1 : Vec Ideal S64x1024x1024 .f32) (A2 : Vec Ideal S64x1024 .f32) (L : Vec Ideal S64 .i32) (A4 : Vec Ideal S1024x1024 .f32) (A5 : Vec Ideal S1024x2048 .f32) (b : Fin 64) (e0 : x0 = srcBlk A0 b) (e1 : x1 = mbBlk A1 b) (e2 : x2 = prBlk A2 b) (e3 : x3 = winT A4) (e4 : x4 = woutT A5) (ew : lenWord c i xt0 = L (ix1 b)) :
    out0_A_5 c i a2 h2 a3 h3 a4 h4 a5 h5 a6 h6 a7 h7 a8 h8 a9 h9 x0 x1 x2 x3 x4 xt0 = outAttn A0 A1 A2 L A4 A5 b := by
  subst e0 e1 e2 e3 e4
  rw [out5_eq, ew]
  rfl
/-- output 6 at its attention weights, -/
theorem out6_val (c : Dev nD) (i : grid0.Coords) (a2 : Memref sig .tc .vmem S1x128x1024 .f32) (h2 : a2.IsWhole) (a3 : Memref sig .tc .vmem S1x1024x1024 .f32) (h3 : a3.IsWhole) (a4 : Memref sig .tc .vmem S1x1x1024 .f32) (h4 : a4.IsWhole) (a5 : Memref sig .tc .vmem S1024x1024 .f32) (h5 : a5.IsWhole) (a6 : Memref sig .tc .vmem S2048x1024 .f32) (h6 : a6.IsWhole) (a7 : Memref sig .tc .vmem S1x128x1024 .f32) (h7 : a7.IsWhole) (a8 : Memref sig .tc .vmem S1x128x1024 .f32) (h8 : a8.IsWhole) (a9 : Memref sig .tc .vmem S1x128x1024 .f32) (h9 : a9.IsWhole) (x0 : Vec Ideal S1x128x1024 .f32) (x1 : Vec Ideal S1x1024x1024 .f32) (x2 : Vec Ideal S1x1x1024 .f32) (x3 : Vec Ideal S1024x1024 .f32) (x4 : Vec Ideal S2048x1024 .f32) (xt0 : TbBuf0 (F := Ideal) c tbM0_0) (A0 : Vec Ideal S64x128x1024 .f32) (A1 : Vec Ideal S64x1024x1024 .f32) (A2 : Vec Ideal S64x1024 .f32) (L : Vec Ideal S64 .i32) (A4 : Vec Ideal S1024x1024 .f32) (A5 : Vec Ideal S1024x2048 .f32) (b : Fin 64) (e0 : x0 = srcBlk A0 b) (e1 : x1 = mbBlk A1 b) (e2 : x2 = prBlk A2 b) (e3 : x3 = winT A4) (e4 : x4 = woutT A5) (ew : lenWord c i xt0 = L (ix1 b)) :
    out0_A_6 c i a2 h2 a3 h3 a4 h4 a5 h5 a6 h6 a7 h7 a8 h8 a9 h9 x0 x1 x2 x3 x4 xt0 = outAlign A0 A1 A2 L A4 b := by
  subst e0 e1 e2 e3 e4
  rw [out6_eq, ew]
  rfl
/-- output 7 at its plain softmax. -/
theorem out7_val (c : Dev nD) (i : grid0.Coords) (a2 : Memref sig .tc .vmem S1x128x1024 .f32) (h2 : a2.IsWhole) (a3 : Memref sig .tc .vmem S1x1024x1024 .f32) (h3 : a3.IsWhole) (a4 : Memref sig .tc .vmem S1x1x1024 .f32) (h4 : a4.IsWhole) (a5 : Memref sig .tc .vmem S1024x1024 .f32) (h5 : a5.IsWhole) (a6 : Memref sig .tc .vmem S2048x1024 .f32) (h6 : a6.IsWhole) (a7 : Memref sig .tc .vmem S1x128x1024 .f32) (h7 : a7.IsWhole) (a8 : Memref sig .tc .vmem S1x128x1024 .f32) (h8 : a8.IsWhole) (a9 : Memref sig .tc .vmem S1x128x1024 .f32) (h9 : a9.IsWhole) (x0 : Vec Ideal S1x128x1024 .f32) (x1 : Vec Ideal S1x1024x1024 .f32) (x2 : Vec Ideal S1x1x1024 .f32) (x3 : Vec Ideal S1024x1024 .f32) (x4 : Vec Ideal S2048x1024 .f32) (xt0 : TbBuf0 (F := Ideal) c tbM0_0) (A0 : Vec Ideal S64x128x1024 .f32) (A1 : Vec Ideal S64x1024x1024 .f32) (A2 : Vec Ideal S64x1024 .f32) (L : Vec Ideal S64 .i32) (A4 : Vec Ideal S1024x1024 .f32) (A5 : Vec Ideal S1024x2048 .f32) (b : Fin 64) (e0 : x0 = srcBlk A0 b) (e1 : x1 = mbBlk A1 b) (e2 : x2 = prBlk A2 b) (e3 : x3 = winT A4) (e4 : x4 = woutT A5) (ew : lenWord c i xt0 = L (ix1 b)) :
    out0_A_7 c i a2 h2 a3 h3 a4 h4 a5 h5 a6 h6 a7 h7 a8 h8 a9 h9 x0 x1 x2 x3 x4 xt0 = outSoft A0 A1 L A4 b := by
  subst e0 e1 e2 e3 e4
  rw [out7_eq, ew]
  rfl

theorem after5_eq (hO : Ok m) (c : Dev nD) (t : Fin (cfgM m hO).N) :
    ((dats m hO 0 c).after 5 t : Vec Ideal S1x128x1024 .f32) = outAttn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (batchOf m hO t) := by
  rw [after0_5]
  unfold outsAt0
  dsimp only
  exact out5_val c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (tbl m 0) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (batchOf m hO t) (iblk0_eq m hO c t) (iblk1_eq m hO c t) (iblk2_eq m hO c t) (iblk3_eq m hO c t) (iblk4_eq m hO c t) (word_eq m hO c t)

theorem after6_eq (hO : Ok m) (c : Dev nD) (t : Fin (cfgM m hO).N) :
    ((dats m hO 0 c).after 6 t : Vec Ideal S1x128x1024 .f32) = outAlign (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (batchOf m hO t) := by
  rw [after0_6]
  unfold outsAt0
  dsimp only
  exact out6_val c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (tbl m 0) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (batchOf m hO t) (iblk0_eq m hO c t) (iblk1_eq m hO c t) (iblk2_eq m hO c t) (iblk3_eq m hO c t) (iblk4_eq m hO c t) (word_eq m hO c t)

theorem after7_eq (hO : Ok m) (c : Dev nD) (t : Fin (cfgM m hO).N) :
    ((dats m hO 0 c).after 7 t : Vec Ideal S1x128x1024 .f32) = outSoft (m ((c.tc : Thread nD τ).loc main_arg0)) (m ((c.tc : Thread nD τ).loc main_arg1)) (m ((c.tc : Thread nD τ).loc main_arg3)) (m ((c.tc : Thread nD τ).loc main_arg4)) (batchOf m hO t) := by
  rw [after0_7]
  unfold outsAt0
  dsimp only
  exact out7_val c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (tbl m 0) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (batchOf m hO t) (iblk0_eq m hO c t) (iblk1_eq m hO c t) (iblk2_eq m hO c t) (iblk3_eq m hO c t) (iblk4_eq m hO c t) (word_eq m hO c t)

/-! ## The three arrays the kernel call leaves: the blocks laid along the batch axis -/

section Arrays
variable (A0 : Vec Ideal S64x128x1024 .f32) (A1 : Vec Ideal S64x1024x1024 .f32) (A2 : Vec Ideal S64x1024 .f32)
  (L : Vec Ideal S64 .i32) (A4 : Vec Ideal S1024x1024 .f32) (A5 : Vec Ideal S1024x2048 .f32)
/-- (b, t, d): batch b's hidden state at (t, d). -/
def arrAttn : Vec Ideal S64x128x1024 .f32 :=
  fun i => outAttn A0 A1 A2 L A4 A5 ⟨(i 0).val, (i 0).isLt⟩ (ix3 (0 : Fin 1) ⟨(i 1).val, (i 1).isLt⟩ ⟨(i 2).val, (i 2).isLt⟩)
/-- (b, t, s): batch b's attention weights at (t, s). -/
def arrAlign : Vec Ideal S64x128x1024 .f32 :=
  fun i => outAlign A0 A1 A2 L A4 ⟨(i 0).val, (i 0).isLt⟩ (ix3 (0 : Fin 1) ⟨(i 1).val, (i 1).isLt⟩ ⟨(i 2).val, (i 2).isLt⟩)
/-- (b, t, s): batch b's plain softmax at (t, s). -/
def arrSoft : Vec Ideal S64x128x1024 .f32 :=
  fun i => outSoft A0 A1 L A4 ⟨(i 0).val, (i 0).isLt⟩ (ix3 (0 : Fin 1) ⟨(i 1).val, (i 1).isLt⟩ ⟨(i 2).val, (i 2).isLt⟩)
end Arrays

/-! ## Where each output window's block sits: rows t, whole in the other two axes -/

theorem tr5_facts : ∀ t : Fin grid0.N, cc0_transform_5 (grid0.coords t) 0 = t.val ∧ cc0_transform_5 (grid0.coords t) 1 = 0 ∧ cc0_transform_5 (grid0.coords t) 2 = 0 := by decide +kernel
theorem tr6_facts : ∀ t : Fin grid0.N, cc0_transform_6 (grid0.coords t) 0 = t.val ∧ cc0_transform_6 (grid0.coords t) 1 = 0 ∧ cc0_transform_6 (grid0.coords t) 2 = 0 := by decide +kernel
theorem tr7_facts : ∀ t : Fin grid0.N, cc0_transform_7 (grid0.coords t) 0 = t.val ∧ cc0_transform_7 (grid0.coords t) 1 = 0 ∧ cc0_transform_7 (grid0.coords t) 2 = 0 := by decide +kernel

/-- What point t writes back through output window 5: rows t of the array. -/
theorem flushed5_eq (hO : Ok m) (c : Dev nD) (t : Fin (cfgM m hO).N) :
    (dats m hO 0 c).flushed 5 t = (((cfgM m hO).win 5).blk t).view.read (Elt Ideal) (arrAttn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show ((cfgM m hO).win 5).cut ((cfgM m hO).grid.coords t) ((dats m hO 0 c).after 5 t) = _
  refine funext fun (j : S1x128x1024.Idx) => ?_
  show ((dats m hO 0 c).after 5 t : Vec Ideal S1x128x1024 .f32) j = arrAttn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ((((cfgM m hO).win 5).blk t).view.emb j)
  rw [after5_eq]
  unfold arrAttn
  obtain ⟨f0, f1, f2⟩ := tr5_facts t
  have hj0 : (j 0).val < 1 := (j 0).isLt
  have hj1 : (j 1).val < 128 := (j 1).isLt
  have hj2 : (j 2).val < 1024 := (j 2).isLt
  have e0 : ((((cfgM m hO).win 5).blk t).view.emb j (0 : Fin 3)).val = t.val := by
    show ((cfgM m hO).win 5).index t (0 : Fin 3) * 1 + 1 * (j 0).val = t.val
    rw [show ((cfgM m hO).win 5).index t (0 : Fin 3) = cc0_transform_5 (grid0.coords t) 0 from rfl, f0]; omega
  have e1 : ((((cfgM m hO).win 5).blk t).view.emb j (1 : Fin 3)).val = (j 1).val := by
    show ((cfgM m hO).win 5).index t (1 : Fin 3) * 128 + 1 * (j 1).val = (j 1).val
    rw [show ((cfgM m hO).win 5).index t (1 : Fin 3) = cc0_transform_5 (grid0.coords t) 1 from rfl, f1]; omega
  have e2 : ((((cfgM m hO).win 5).blk t).view.emb j (2 : Fin 3)).val = (j 2).val := by
    show ((cfgM m hO).win 5).index t (2 : Fin 3) * 1024 + 1 * (j 2).val = (j 2).val
    rw [show ((cfgM m hO).win 5).index t (2 : Fin 3) = cc0_transform_5 (grid0.coords t) 2 from rfl, f2]; omega
  refine congr (congrArg _ (Fin.ext e0.symm)) (funext fun a => Fin.ext ?_)
  match a with
  | ⟨0, _⟩ => show (j 0).val = 0; omega
  | ⟨1, _⟩ => exact e1.symm
  | ⟨2, _⟩ => exact e2.symm

set_option backward.isDefEq.respectTransparency.types false in
/-- An index of the array is in point t's block of window 5 iff each coordinate is in the block's range on its axis. -/
theorem mem_blk5 (hO : Ok m) (t : Fin (cfgM m hO).N) (i : S64x128x1024.Idx) :
    i ∈ (((cfgM m hO).win 5).blk t).view.set ↔ ∀ a : Fin 3, ((cfgM m hO).win 5).index t a * S1x128x1024.size a ≤ (i a).val ∧ (i a).val < ((cfgM m hO).win 5).index t a * S1x128x1024.size a + S1x128x1024.size a := by
  show i ∈ ((View.whole main_v3_0).slice (((cfgM m hO).win 5).rect t)).set ↔ _
  rw [View.set_slice_whole]
  exact Rect.mem_set_unit

/-- Every index (b, t', x) is in the block of point b. -/
theorem cover5 (hO : Ok m) (i : S64x128x1024.Idx) :
    ∃ t : Fin (cfgM m hO).N, ((cfgM m hO).win 5).flush t = true ∧ i ∈ (((cfgM m hO).win 5).blk t).view.set := by
  have hi0 : (i 0).val < 64 := (i 0).isLt
  have hi1 : (i 1).val < 128 := (i 1).isLt
  have hi2 : (i 2).val < 1024 := (i 2).isLt
  refine ⟨⟨(i 0).val, lt_of_lt_of_eq hi0 (N_0 : (cfgM m hO).N = 64).symm⟩, flush0_5 (adm m hO) _, ?_⟩
  rw [mem_blk5]
  obtain ⟨f0, f1, f2⟩ := tr5_facts ⟨(i 0).val, lt_of_lt_of_eq hi0 (N_0 : grid0.N = 64).symm⟩
  intro a
  match a with
  | ⟨0, _⟩ =>
    show ((cfgM m hO).win 5).index ⟨(i 0).val, _⟩ (0 : Fin 3) * 1 ≤ (i 0).val ∧ (i 0).val < ((cfgM m hO).win 5).index ⟨(i 0).val, _⟩ (0 : Fin 3) * 1 + 1
    rw [show ((cfgM m hO).win 5).index ⟨(i 0).val, _⟩ (0 : Fin 3) = cc0_transform_5 (grid0.coords ⟨(i 0).val, lt_of_lt_of_eq hi0 (N_0 : grid0.N = 64).symm⟩) 0 from rfl, f0]
    dsimp only; omega
  | ⟨1, _⟩ =>
    show ((cfgM m hO).win 5).index ⟨(i 0).val, _⟩ (1 : Fin 3) * 128 ≤ (i 1).val ∧ (i 1).val < ((cfgM m hO).win 5).index ⟨(i 0).val, _⟩ (1 : Fin 3) * 128 + 128
    rw [show ((cfgM m hO).win 5).index ⟨(i 0).val, _⟩ (1 : Fin 3) = cc0_transform_5 (grid0.coords ⟨(i 0).val, lt_of_lt_of_eq hi0 (N_0 : grid0.N = 64).symm⟩) 1 from rfl, f1]
    omega
  | ⟨2, _⟩ =>
    show ((cfgM m hO).win 5).index ⟨(i 0).val, _⟩ (2 : Fin 3) * 1024 ≤ (i 2).val ∧ (i 2).val < ((cfgM m hO).win 5).index ⟨(i 0).val, _⟩ (2 : Fin 3) * 1024 + 1024
    rw [show ((cfgM m hO).win 5).index ⟨(i 0).val, _⟩ (2 : Fin 3) = cc0_transform_5 (grid0.coords ⟨(i 0).val, lt_of_lt_of_eq hi0 (N_0 : grid0.N = 64).symm⟩) 2 from rfl, f2]
    omega

/-- So the array of window 5 ends as the blocks laid along the batch axis. -/
theorem final5 (hO : Ok m) (c : Dev nD) : (dats m hO 0 c).arrAt 5 (cfgM m hO).N = arrAttn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats m hO 0 c).arrAt_eq_of_cover 5 (arrAttn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (fun t _ => flushed5_eq m hO c t) (cover5 m hO)

/-- What point t writes back through output window 6: rows t of the array. -/
theorem flushed6_eq (hO : Ok m) (c : Dev nD) (t : Fin (cfgM m hO).N) :
    (dats m hO 0 c).flushed 6 t = (((cfgM m hO).win 6).blk t).view.read (Elt Ideal) (arrAlign (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show ((cfgM m hO).win 6).cut ((cfgM m hO).grid.coords t) ((dats m hO 0 c).after 6 t) = _
  refine funext fun (j : S1x128x1024.Idx) => ?_
  show ((dats m hO 0 c).after 6 t : Vec Ideal S1x128x1024 .f32) j = arrAlign (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ((((cfgM m hO).win 6).blk t).view.emb j)
  rw [after6_eq]
  unfold arrAlign
  obtain ⟨f0, f1, f2⟩ := tr6_facts t
  have hj0 : (j 0).val < 1 := (j 0).isLt
  have hj1 : (j 1).val < 128 := (j 1).isLt
  have hj2 : (j 2).val < 1024 := (j 2).isLt
  have e0 : ((((cfgM m hO).win 6).blk t).view.emb j (0 : Fin 3)).val = t.val := by
    show ((cfgM m hO).win 6).index t (0 : Fin 3) * 1 + 1 * (j 0).val = t.val
    rw [show ((cfgM m hO).win 6).index t (0 : Fin 3) = cc0_transform_6 (grid0.coords t) 0 from rfl, f0]; omega
  have e1 : ((((cfgM m hO).win 6).blk t).view.emb j (1 : Fin 3)).val = (j 1).val := by
    show ((cfgM m hO).win 6).index t (1 : Fin 3) * 128 + 1 * (j 1).val = (j 1).val
    rw [show ((cfgM m hO).win 6).index t (1 : Fin 3) = cc0_transform_6 (grid0.coords t) 1 from rfl, f1]; omega
  have e2 : ((((cfgM m hO).win 6).blk t).view.emb j (2 : Fin 3)).val = (j 2).val := by
    show ((cfgM m hO).win 6).index t (2 : Fin 3) * 1024 + 1 * (j 2).val = (j 2).val
    rw [show ((cfgM m hO).win 6).index t (2 : Fin 3) = cc0_transform_6 (grid0.coords t) 2 from rfl, f2]; omega
  refine congr (congrArg _ (Fin.ext e0.symm)) (funext fun a => Fin.ext ?_)
  match a with
  | ⟨0, _⟩ => show (j 0).val = 0; omega
  | ⟨1, _⟩ => exact e1.symm
  | ⟨2, _⟩ => exact e2.symm

set_option backward.isDefEq.respectTransparency.types false in
/-- An index of the array is in point t's block of window 6 iff each coordinate is in the block's range on its axis. -/
theorem mem_blk6 (hO : Ok m) (t : Fin (cfgM m hO).N) (i : S64x128x1024.Idx) :
    i ∈ (((cfgM m hO).win 6).blk t).view.set ↔ ∀ a : Fin 3, ((cfgM m hO).win 6).index t a * S1x128x1024.size a ≤ (i a).val ∧ (i a).val < ((cfgM m hO).win 6).index t a * S1x128x1024.size a + S1x128x1024.size a := by
  show i ∈ ((View.whole main_v3_1).slice (((cfgM m hO).win 6).rect t)).set ↔ _
  rw [View.set_slice_whole]
  exact Rect.mem_set_unit

/-- Every index (b, t', x) is in the block of point b. -/
theorem cover6 (hO : Ok m) (i : S64x128x1024.Idx) :
    ∃ t : Fin (cfgM m hO).N, ((cfgM m hO).win 6).flush t = true ∧ i ∈ (((cfgM m hO).win 6).blk t).view.set := by
  have hi0 : (i 0).val < 64 := (i 0).isLt
  have hi1 : (i 1).val < 128 := (i 1).isLt
  have hi2 : (i 2).val < 1024 := (i 2).isLt
  refine ⟨⟨(i 0).val, lt_of_lt_of_eq hi0 (N_0 : (cfgM m hO).N = 64).symm⟩, flush0_6 (adm m hO) _, ?_⟩
  rw [mem_blk6]
  obtain ⟨f0, f1, f2⟩ := tr6_facts ⟨(i 0).val, lt_of_lt_of_eq hi0 (N_0 : grid0.N = 64).symm⟩
  intro a
  match a with
  | ⟨0, _⟩ =>
    show ((cfgM m hO).win 6).index ⟨(i 0).val, _⟩ (0 : Fin 3) * 1 ≤ (i 0).val ∧ (i 0).val < ((cfgM m hO).win 6).index ⟨(i 0).val, _⟩ (0 : Fin 3) * 1 + 1
    rw [show ((cfgM m hO).win 6).index ⟨(i 0).val, _⟩ (0 : Fin 3) = cc0_transform_6 (grid0.coords ⟨(i 0).val, lt_of_lt_of_eq hi0 (N_0 : grid0.N = 64).symm⟩) 0 from rfl, f0]
    dsimp only; omega
  | ⟨1, _⟩ =>
    show ((cfgM m hO).win 6).index ⟨(i 0).val, _⟩ (1 : Fin 3) * 128 ≤ (i 1).val ∧ (i 1).val < ((cfgM m hO).win 6).index ⟨(i 0).val, _⟩ (1 : Fin 3) * 128 + 128
    rw [show ((cfgM m hO).win 6).index ⟨(i 0).val, _⟩ (1 : Fin 3) = cc0_transform_6 (grid0.coords ⟨(i 0).val, lt_of_lt_of_eq hi0 (N_0 : grid0.N = 64).symm⟩) 1 from rfl, f1]
    omega
  | ⟨2, _⟩ =>
    show ((cfgM m hO).win 6).index ⟨(i 0).val, _⟩ (2 : Fin 3) * 1024 ≤ (i 2).val ∧ (i 2).val < ((cfgM m hO).win 6).index ⟨(i 0).val, _⟩ (2 : Fin 3) * 1024 + 1024
    rw [show ((cfgM m hO).win 6).index ⟨(i 0).val, _⟩ (2 : Fin 3) = cc0_transform_6 (grid0.coords ⟨(i 0).val, lt_of_lt_of_eq hi0 (N_0 : grid0.N = 64).symm⟩) 2 from rfl, f2]
    omega

/-- So the array of window 6 ends as the blocks laid along the batch axis. -/
theorem final6 (hO : Ok m) (c : Dev nD) : (dats m hO 0 c).arrAt 6 (cfgM m hO).N = arrAlign (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (dats m hO 0 c).arrAt_eq_of_cover 6 (arrAlign (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (fun t _ => flushed6_eq m hO c t) (cover6 m hO)

/-- What point t writes back through output window 7: rows t of the array. -/
theorem flushed7_eq (hO : Ok m) (c : Dev nD) (t : Fin (cfgM m hO).N) :
    (dats m hO 0 c).flushed 7 t = (((cfgM m hO).win 7).blk t).view.read (Elt Ideal) (arrSoft (m ((c.tc : Thread nD τ).loc main_arg0)) (m ((c.tc : Thread nD τ).loc main_arg1)) (m ((c.tc : Thread nD τ).loc main_arg3)) (m ((c.tc : Thread nD τ).loc main_arg4))) := by
  show ((cfgM m hO).win 7).cut ((cfgM m hO).grid.coords t) ((dats m hO 0 c).after 7 t) = _
  refine funext fun (j : S1x128x1024.Idx) => ?_
  show ((dats m hO 0 c).after 7 t : Vec Ideal S1x128x1024 .f32) j = arrSoft (m ((c.tc : Thread nD τ).loc main_arg0)) (m ((c.tc : Thread nD τ).loc main_arg1)) (m ((c.tc : Thread nD τ).loc main_arg3)) (m ((c.tc : Thread nD τ).loc main_arg4)) ((((cfgM m hO).win 7).blk t).view.emb j)
  rw [after7_eq]
  unfold arrSoft
  obtain ⟨f0, f1, f2⟩ := tr7_facts t
  have hj0 : (j 0).val < 1 := (j 0).isLt
  have hj1 : (j 1).val < 128 := (j 1).isLt
  have hj2 : (j 2).val < 1024 := (j 2).isLt
  have e0 : ((((cfgM m hO).win 7).blk t).view.emb j (0 : Fin 3)).val = t.val := by
    show ((cfgM m hO).win 7).index t (0 : Fin 3) * 1 + 1 * (j 0).val = t.val
    rw [show ((cfgM m hO).win 7).index t (0 : Fin 3) = cc0_transform_7 (grid0.coords t) 0 from rfl, f0]; omega
  have e1 : ((((cfgM m hO).win 7).blk t).view.emb j (1 : Fin 3)).val = (j 1).val := by
    show ((cfgM m hO).win 7).index t (1 : Fin 3) * 128 + 1 * (j 1).val = (j 1).val
    rw [show ((cfgM m hO).win 7).index t (1 : Fin 3) = cc0_transform_7 (grid0.coords t) 1 from rfl, f1]; omega
  have e2 : ((((cfgM m hO).win 7).blk t).view.emb j (2 : Fin 3)).val = (j 2).val := by
    show ((cfgM m hO).win 7).index t (2 : Fin 3) * 1024 + 1 * (j 2).val = (j 2).val
    rw [show ((cfgM m hO).win 7).index t (2 : Fin 3) = cc0_transform_7 (grid0.coords t) 2 from rfl, f2]; omega
  refine congr (congrArg _ (Fin.ext e0.symm)) (funext fun a => Fin.ext ?_)
  match a with
  | ⟨0, _⟩ => show (j 0).val = 0; omega
  | ⟨1, _⟩ => exact e1.symm
  | ⟨2, _⟩ => exact e2.symm

set_option backward.isDefEq.respectTransparency.types false in
/-- An index of the array is in point t's block of window 7 iff each coordinate is in the block's range on its axis. -/
theorem mem_blk7 (hO : Ok m) (t : Fin (cfgM m hO).N) (i : S64x128x1024.Idx) :
    i ∈ (((cfgM m hO).win 7).blk t).view.set ↔ ∀ a : Fin 3, ((cfgM m hO).win 7).index t a * S1x128x1024.size a ≤ (i a).val ∧ (i a).val < ((cfgM m hO).win 7).index t a * S1x128x1024.size a + S1x128x1024.size a := by
  show i ∈ ((View.whole main_v3_2).slice (((cfgM m hO).win 7).rect t)).set ↔ _
  rw [View.set_slice_whole]
  exact Rect.mem_set_unit

/-- Every index (b, t', x) is in the block of point b. -/
theorem cover7 (hO : Ok m) (i : S64x128x1024.Idx) :
    ∃ t : Fin (cfgM m hO).N, ((cfgM m hO).win 7).flush t = true ∧ i ∈ (((cfgM m hO).win 7).blk t).view.set := by
  have hi0 : (i 0).val < 64 := (i 0).isLt
  have hi1 : (i 1).val < 128 := (i 1).isLt
  have hi2 : (i 2).val < 1024 := (i 2).isLt
  refine ⟨⟨(i 0).val, lt_of_lt_of_eq hi0 (N_0 : (cfgM m hO).N = 64).symm⟩, flush0_7 (adm m hO) _, ?_⟩
  rw [mem_blk7]
  obtain ⟨f0, f1, f2⟩ := tr7_facts ⟨(i 0).val, lt_of_lt_of_eq hi0 (N_0 : grid0.N = 64).symm⟩
  intro a
  match a with
  | ⟨0, _⟩ =>
    show ((cfgM m hO).win 7).index ⟨(i 0).val, _⟩ (0 : Fin 3) * 1 ≤ (i 0).val ∧ (i 0).val < ((cfgM m hO).win 7).index ⟨(i 0).val, _⟩ (0 : Fin 3) * 1 + 1
    rw [show ((cfgM m hO).win 7).index ⟨(i 0).val, _⟩ (0 : Fin 3) = cc0_transform_7 (grid0.coords ⟨(i 0).val, lt_of_lt_of_eq hi0 (N_0 : grid0.N = 64).symm⟩) 0 from rfl, f0]
    dsimp only; omega
  | ⟨1, _⟩ =>
    show ((cfgM m hO).win 7).index ⟨(i 0).val, _⟩ (1 : Fin 3) * 128 ≤ (i 1).val ∧ (i 1).val < ((cfgM m hO).win 7).index ⟨(i 0).val, _⟩ (1 : Fin 3) * 128 + 128
    rw [show ((cfgM m hO).win 7).index ⟨(i 0).val, _⟩ (1 : Fin 3) = cc0_transform_7 (grid0.coords ⟨(i 0).val, lt_of_lt_of_eq hi0 (N_0 : grid0.N = 64).symm⟩) 1 from rfl, f1]
    omega
  | ⟨2, _⟩ =>
    show ((cfgM m hO).win 7).index ⟨(i 0).val, _⟩ (2 : Fin 3) * 1024 ≤ (i 2).val ∧ (i 2).val < ((cfgM m hO).win 7).index ⟨(i 0).val, _⟩ (2 : Fin 3) * 1024 + 1024
    rw [show ((cfgM m hO).win 7).index ⟨(i 0).val, _⟩ (2 : Fin 3) = cc0_transform_7 (grid0.coords ⟨(i 0).val, lt_of_lt_of_eq hi0 (N_0 : grid0.N = 64).symm⟩) 2 from rfl, f2]
    omega

/-- So the array of window 7 ends as the blocks laid along the batch axis. -/
theorem final7 (hO : Ok m) (c : Dev nD) : (dats m hO 0 c).arrAt 7 (cfgM m hO).N = arrSoft (m ((c.tc : Thread nD τ).loc main_arg0)) (m ((c.tc : Thread nD τ).loc main_arg1)) (m ((c.tc : Thread nD τ).loc main_arg3)) (m ((c.tc : Thread nD τ).loc main_arg4)) :=
  (dats m hO 0 c).arrAt_eq_of_cover 7 (arrSoft (m ((c.tc : Thread nD τ).loc main_arg0)) (m ((c.tc : Thread nD τ).loc main_arg1)) (m ((c.tc : Thread nD τ).loc main_arg3)) (m ((c.tc : Thread nD τ).loc main_arg4))) (fun t _ => flushed7_eq m hO c t) (cover7 m hO)

/-! ## The program's last three operations: each array transposed to (t, b, .) -/

/-- The transposition [1, 0, 2] reads (t, b, x) at (b, t, x). -/
theorem tr_arr (X : Vec Ideal S64x128x1024 .f32) (i : S128x64x1024.Idx) :
    transpose S128x64x1024 [1, 0, 2] X transposes_S64x128x1024_S128x64x1024_1_0_2 i
      = X (ix3 ⟨(i 1).val, (i 1).isLt⟩ ⟨(i 0).val, (i 0).isLt⟩ ⟨(i 2).val, (i 2).isLt⟩) :=
  transpose_apply [1, 0, 2] X transposes_S64x128x1024_S128x64x1024_1_0_2 i _ (fun b => match b with
    | ⟨0, _⟩ => rfl
    | ⟨1, _⟩ => rfl
    | ⟨2, _⟩ => rfl)

theorem tail4 (hO : Ok m) (c : Dev nD) :
    Pipeline.afterTail (pcfgs (F := Ideal)) (fun _ => adm m hO) (dats m hO) 0 (V0 m) [hostOps1 (F := Ideal)] c main_v4 = resAttn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail
  show StableHlo.after (hostOps1 (F := Ideal)) _ (Proc.devRef .tc main_v4) = _
  after_results
  refine (congrArg (fun X => transpose S128x64x1024 [1, 0, 2] X transposes_S64x128x1024_S128x64x1024_1_0_2)
    ((Pipeline.withArrays_arr spec0 (launch0 (F := Ideal)).win.arr_inj c _ _ 5).trans (final5 m hO c))).trans ?_
  funext i
  rw [tr_arr]
  rfl

theorem tail5 (hO : Ok m) (c : Dev nD) :
    Pipeline.afterTail (pcfgs (F := Ideal)) (fun _ => adm m hO) (dats m hO) 0 (V0 m) [hostOps1 (F := Ideal)] c main_v5 = resAlign (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Pipeline.afterTail
  show StableHlo.after (hostOps1 (F := Ideal)) _ (Proc.devRef .tc main_v5) = _
  after_results
  refine (congrArg (fun X => transpose S128x64x1024 [1, 0, 2] X transposes_S64x128x1024_S128x64x1024_1_0_2)
    ((Pipeline.withArrays_arr spec0 (launch0 (F := Ideal)).win.arr_inj c _ _ 6).trans (final6 m hO c))).trans ?_
  funext i
  rw [tr_arr]
  rfl

theorem tail6 (hO : Ok m) (c : Dev nD) :
    Pipeline.afterTail (pcfgs (F := Ideal)) (fun _ => adm m hO) (dats m hO) 0 (V0 m) [hostOps1 (F := Ideal)] c main_v6 = resSoft (m ((c.tc : Thread nD τ).loc main_arg0)) (m ((c.tc : Thread nD τ).loc main_arg1)) (m ((c.tc : Thread nD τ).loc main_arg3)) (m ((c.tc : Thread nD τ).loc main_arg4)) := by
  unfold Pipeline.afterTail
  show StableHlo.after (hostOps1 (F := Ideal)) _ (Proc.devRef .tc main_v6) = _
  after_results
  refine (congrArg (fun X => transpose S128x64x1024 [1, 0, 2] X transposes_S64x128x1024_S128x64x1024_1_0_2)
    ((Pipeline.withArrays_arr spec0 (launch0 (F := Ideal)).win.arr_inj c _ _ 7).trans (final7 m hO c))).trans ?_
  funext i
  rw [tr_arr]
  rfl

/-! ## The run -/

theorem kernel_run : θ_run (defs (F := Ideal)) (onTc (τ := τ) (main (F := Ideal))) ⟨m, fun _ => 0, ρ⟩ fun r => ∀ c : Dev nD,
      r.2.mem ((c.tc : Thread nD τ).loc main_v4) = resAttn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v5) = resAlign (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6) = resSoft (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hO : Ok m := trivial
  refine (θ_run defs _ _).mono (fun r h c => ?_) (run_main m ρ hO)
  exact ⟨((h c).2 main_v4 (by decide : main_v4 ∈ Pipeline.restRefs sig spec0)).trans (tail4 m hO c),
    ((h c).2 main_v5 (by decide : main_v5 ∈ Pipeline.restRefs sig spec0)).trans (tail5 m hO c),
    ((h c).2 main_v6 (by decide : main_v6 ∈ Pipeline.restRefs sig spec0)).trans (tail6 m hO c),
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).2 main_arg2 (by decide : main_arg2 ∈ Pipeline.restRefs sig spec0)).trans (W_main_arg2 m hO (dats m hO) c),
    ((h c).2 main_arg3 (by decide : main_arg3 ∈ Pipeline.restRefs sig spec0)).trans (W_main_arg3 m hO (dats m hO) c),
    ((h c).2 main_arg4 (by decide : main_arg4 ∈ Pipeline.restRefs sig spec0)).trans (W_main_arg4 m hO (dats m hO) c),
    ((h c).2 main_arg5 (by decide : main_arg5 ∈ Pipeline.restRefs sig spec0)).trans (W_main_arg5 m hO (dats m hO) c)⟩

end Cert.KernelIdeal.Attn

end
-- ==== Proof.lean ====
/-
  The certificate of the attention kernel against its jnp reference.

  Frames. The kernel's index maps use only the grid coordinate (block b of each batched array, the whole weight
  matrices), never the prefetched lengths, so the side condition on the tables is empty and the generated frame
  certificates apply to every memory; the reference's frame is its run with the results dropped.

  Values, over the extended reals. Both programs compute, per batch b and query row t,
    logits (s)  = sum_e (sum_d source (b,t,d) W_in (e,d)) memory_bank (b,s,e)
    soft        = softmax over s of (s < lengths b ? logits : -1e9)
    align       = soft * probs (b, .) * [s < lengths b], divided by its row sum
    attn        = tanh (sum_f [align . memory_bank (b) , source (b,t,.)] (f) W_out (d,f))
  with the same operations in the same order (a change of float format is the identity, a product into a zero
  accumulator is the plain sum, a maximum started at -inf and then taken against -inf again is the same maximum, the
  0/1 mask converted through a word or directly is the same number), and return attn, align and soft transposed to
  (t, b, .). So the two runs end with equal results (Bridge), the kernel's read off its frame run block by block (KRun)
  and the reference's off its run one operation at a time.
-/
import proofs.«404635_j44478681317945_1_alg».proof.Defs
import proofs.«404635_j44478681317945_1_alg».proof.Proof.Gen.Kernel
import proofs.«404635_j44478681317945_1_alg».proof.Proof.Gen.Kernel.Frame
import proofs.«404635_j44478681317945_1_alg».proof.Proof.Gen.KernelIdeal
import proofs.«404635_j44478681317945_1_alg».proof.Proof.Gen.KernelIdeal.Frame
import proofs.«404635_j44478681317945_1_alg».proof.Proof.Gen.ReferenceIdeal
import proofs.«404635_j44478681317945_1_alg».proof.Proof.Gen.Pre_finite_inputs
import proofs.«404635_j44478681317945_1_alg».proof.Proof.RefRead
import proofs.«404635_j44478681317945_1_alg».proof.Proof.Bridge
import proofs.«404635_j44478681317945_1_alg».proof.Proof.KRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ trivial
theorem frame_ki : Cert.frame_KernelIdeal := fun m ρ _ => Cert.KernelIdeal.Gen.frame m ρ trivial
theorem frame_ri : Cert.frame_ReferenceIdeal := fun m ρ _ =>
  (θ_run Cert.ReferenceIdeal.defs _ _).mono (fun _ h c => (h c).2.2.2) (Cert.ReferenceIdeal.ValueP.run (F := Ideal) m ρ)

theorem preserves : Cert.preserves_Kernel_KernelIdeal := trivial

open Cert.KernelIdeal.Attn in
/-- From memories that agree on the six arguments both programs end with the three results equal: the kernel's are
    the per-batch blocks transposed, which are the reference's arrays. -/
theorem algebraic : Cert.algebraic_KernelIdeal_ReferenceIdeal := by
  intro m ρ m' ρ' _ hagree
  refine ⟨_, _, _, kernel_run m ρ, ?_⟩
  refine (θ_run Cert.ReferenceIdeal.defs _ _).mono (fun _ h c => ?_) (Cert.ReferenceIdeal.ValueP.run (F := Ideal) m' ρ')
  obtain ⟨h35, h36, h37, hargs⟩ := h c
  obtain ⟨e0, e1, e2, e3, e4, e5⟩ := hagree c
  refine ⟨h35.trans ?_, h36.trans ?_, h37.trans ?_, hargs⟩
  · rw [Cert.ReferenceIdeal.ReadP.val_main_v35_eq, e0, e1, e2, e3, e4, e5]
    exact (resAttn_eq _ _ _ _ _ _).symm
  · rw [Cert.ReferenceIdeal.ReadP.val_main_v36_eq, e0, e1, e2, e3, e4]
    exact (resAlign_eq _ _ _ _ _).symm
  · rw [Cert.ReferenceIdeal.ReadP.val_main_v37_eq, e0, e1, e3, e4]
    exact (resSoft_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
